-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x64 : Shape := ⟨3, ![8, 1024, 64]⟩
abbrev S64x1024 : Shape := ⟨2, ![64, 1024]⟩
abbrev S1024 : Shape := ⟨1, ![1024]⟩
abbrev S_ : Shape := ⟨0, ![]⟩

class Facts : Prop where
  bcast_S_S8x1024x64 : S_.BroadcastsInDim S8x1024x64 (![] : Fin 0 → Fin S8x1024x64.rank)
  reducesTo_S8x1024x64_S_d0_1_2 : S8x1024x64.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x1024x64 .f32) (main_arg1 : FVec F S64x1024 .f32) (main_arg2 : FVec F S64x1024 .f32) (main_arg3 : FVec F S1024 .f32) (main_arg4 : FVec F S1024 .f32) : IVec S_ 1 :=
  let main_v0 : FVec F S8x1024x64 .f32 := Host.absf main_arg0
  let main_cst : FVec F S_ .f32 := constant S_ .f32 0x7F800000#32
  let main_v1 : FVec F S8x1024x64 .f32 := broadcastInDim S8x1024x64 ![] bcast_S_S8x1024x64 main_cst
  let main_v2 : IVec S8x1024x64 1 := cmpf .olt main_v0 main_v1
  let main_c : IVec S_ 1 := constantI S_ 1 1#1
  let main_v3 : IVec S_ 1 := (fun x v => Host.reduce IntOp.andi x v reducesTo_S8x1024x64_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S8x1024x64 : Shape := ⟨3, ![8, 1024, 64]⟩
abbrev S64x1024 : Shape := ⟨2, ![64, 1024]⟩
abbrev S1024 : Shape := ⟨1, ![1024]⟩
abbrev S1x1024 : Shape := ⟨2, ![1, 1024]⟩
abbrev S8x64x1024 : Shape := ⟨3, ![8, 64, 1024]⟩
abbrev S1x1024x64 : Shape := ⟨3, ![1, 1024, 64]⟩
abbrev S1x64x1024 : Shape := ⟨3, ![1, 64, 1024]⟩
abbrev S1024x64 : Shape := ⟨2, ![1024, 64]⟩
abbrev S64 : Shape := ⟨1, ![64]⟩
abbrev S64x1 : Shape := ⟨2, ![64, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x1024x64, .f32⟩
  | .hbm, ⟨1, _⟩ => ⟨S64x1024, .f32⟩
  | .hbm, ⟨2, _⟩ => ⟨S64x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x64x1024, .f32⟩
  | .local _ .vmem, ⟨0, _⟩ => ⟨S1x1024x64, .f32⟩
  | .local _ .vmem, ⟨1, _⟩ => ⟨S1x1024x64, .f32⟩
  | .local _ .vmem, ⟨2, _⟩ => ⟨S64x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x64x1024, .f32⟩
  | .local _ .vmem, ⟨7, _⟩ => ⟨S1x64x1024, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  slices_S64x1024_S1x1024_1_0 : S64x1024.Slices ![1, 0] S1x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  inb_S64x1024_S64x1024_0_0 : ∀ a, (![0, 0] : Fin 2 → Nat) a + S64x1024.size a ≤ S64x1024.size a
  h_S64x1024 : 0 < S64x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  reduces_S64x1024_S64 : S64x1024.Reduces [1] S64
  shapeCasts_S64_S64x1 : S64.ShapeCasts S64x1
  broadcasts_S64x1_S64x1024 : S64x1.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S8x1024x64.size a
  hwx0_0 : ∀ i : grid0.Coords, EltTy.bits .f32 = 32 ∨ (Rect.block (s := S8x1024x64) S1x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S8x64x1024.size a
  hwx0_5 : ∀ i : grid0.Coords, EltTy.bits .f32 = 32 ∨ (Rect.block (s := S8x64x1024) S1x64x1024.size (cc0_transform_5 i) (hinb0_5 i)).WholeWords (EltTy.packing .f32)

variable [Facts₀]

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x64 : Shape := ⟨3, ![8, 1024, 64]⟩
abbrev S64x1024 : Shape := ⟨2, ![64, 1024]⟩
abbrev S1024 : Shape := ⟨1, ![1024]⟩
abbrev S64 : Shape := ⟨1, ![64]⟩
abbrev S8x64 : Shape := ⟨2, ![8, 64]⟩
abbrev S_ : Shape := ⟨0, ![]⟩
abbrev S8x64x1 : Shape := ⟨3, ![8, 64, 1]⟩
abbrev S1 : Shape := ⟨1, ![1]⟩
abbrev S1x1x1 : Shape := ⟨3, ![1, 1, 1]⟩
abbrev S8x64x1024 : Shape := ⟨3, ![8, 64, 1024]⟩
abbrev S1x1x1024 : Shape := ⟨3, ![1, 1, 1024]⟩

abbrev nBuf : Space → Nat
  | .hbm => 102
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S64x1024, .f32⟩
  | .hbm, ⟨2, _⟩ => ⟨S64x1024, .f32⟩
  | .hbm, ⟨3, _⟩ => ⟨S1024, .f32⟩
  | .hbm, ⟨4, _⟩ => ⟨S1024, .f32⟩
  | .hbm, ⟨5, _⟩ => ⟨S64, .i32⟩
  | .hbm, ⟨6, _⟩ => ⟨S8x64, .i32⟩
  | .hbm, ⟨7, _⟩ => ⟨S_, .i32⟩
  | .hbm, ⟨8, _⟩ => ⟨S8x64, .i32⟩
  | .hbm, ⟨9, _⟩ => ⟨S_, .i32⟩
  | .hbm, ⟨10, _⟩ => ⟨S8x64, .i32⟩
  | .hbm, ⟨11, _⟩ => ⟨S8x64, .i1⟩
  | .hbm, ⟨12, _⟩ => ⟨S_, .i32⟩
  | .hbm, ⟨13, _⟩ => ⟨S8x64, .i32⟩
  | .hbm, ⟨14, _⟩ => ⟨S8x64, .i32⟩
  | .hbm, ⟨15, _⟩ => ⟨S8x64, .i32⟩
  | .hbm, ⟨16, _⟩ => ⟨S8x64x1, .i32⟩
  | .hbm, ⟨17, _⟩ => ⟨S1, .i32⟩
  | .hbm, ⟨18, _⟩ => ⟨S_, .i32⟩
  | .hbm, ⟨19, _⟩ => ⟨S8x64x1, .i32⟩
  | .hbm, ⟨20, _⟩ => ⟨S8x64x1, .i1⟩
  | .hbm, ⟨21, _⟩ => ⟨S1x1x1, .i32⟩
  | .hbm, ⟨22, _⟩ => ⟨S8x64x1, .i32⟩
  | .hbm, ⟨23, _⟩ => ⟨S8x64x1, .i1⟩
  | .hbm, ⟨24, _⟩ => ⟨S8x64x1, .i1⟩
  | .hbm, ⟨25, _⟩ => ⟨S_, .i1⟩
  | .hbm, ⟨26, _⟩ => ⟨S8x64, .i1⟩
  | .hbm, ⟨27, _⟩ => ⟨S8x64x1024, .f32⟩
  | .hbm, ⟨28, _⟩ => ⟨S8x64x1024, .i1⟩
  | .hbm, ⟨29, _⟩ => ⟨S_, .f32⟩
  | .hbm, ⟨30, _⟩ => ⟨S8x64x1024, .f32⟩
  | .hbm, ⟨31, _⟩ => ⟨S8x64x1024, .f32⟩
  | .hbm, ⟨32, _⟩ => ⟨S_, .i32⟩
  | .hbm, ⟨33, _⟩ => ⟨S8x64, .i32⟩
  | .hbm, ⟨34, _⟩ => ⟨S8x64, .i1⟩
  | .hbm, ⟨35, _⟩ => ⟨S_, .i32⟩
  | .hbm, ⟨36, _⟩ => ⟨S8x64, .i32⟩
  | .hbm, ⟨37, _⟩ => ⟨S8x64, .i32⟩
  | .hbm, ⟨38, _⟩ => ⟨S8x64, .i32⟩
  | .hbm, ⟨39, _⟩ => ⟨S8x64x1, .i32⟩
  | .hbm, ⟨40, _⟩ => ⟨S1, .i32⟩
  | .hbm, ⟨41, _⟩ => ⟨S_, .i32⟩
  | .hbm, ⟨42, _⟩ => ⟨S8x64x1, .i32⟩
  | .hbm, ⟨43, _⟩ => ⟨S8x64x1, .i1⟩
  | .hbm, ⟨44, _⟩ => ⟨S1x1x1, .i32⟩
  | .hbm, ⟨45, _⟩ => ⟨S8x64x1, .i32⟩
  | .hbm, ⟨46, _⟩ => ⟨S8x64x1, .i1⟩
  | .hbm, ⟨47, _⟩ => ⟨S8x64x1, .i1⟩
  | .hbm, ⟨48, _⟩ => ⟨S_, .i1⟩
  | .hbm, ⟨49, _⟩ => ⟨S8x64, .i1⟩
  | .hbm, ⟨50, _⟩ => ⟨S8x64x1024, .f32⟩
  | .hbm, ⟨51, _⟩ => ⟨S8x64x1024, .i1⟩
  | .hbm, ⟨52, _⟩ => ⟨S_, .f32⟩
  | .hbm, ⟨53, _⟩ => ⟨S8x64x1024, .f32⟩
  | .hbm, ⟨54, _⟩ => ⟨S8x64x1024, .f32⟩
  | .hbm, ⟨55, _⟩ => ⟨S8x64x1024, .f32⟩
  | .hbm, ⟨56, _⟩ => ⟨S8x64x1024, .f32⟩
  | .hbm, ⟨57, _⟩ => ⟨S8x64x1024, .f32⟩
  | .hbm, ⟨58, _⟩ => ⟨S_, .f32⟩
  | .hbm, ⟨59, _⟩ => ⟨S8x64, .f32⟩
  | .hbm, ⟨60, _⟩ => ⟨S8x64x1, .f32⟩
  | .hbm, ⟨61, _⟩ => ⟨S_, .f32⟩
  | .hbm, ⟨62, _⟩ => ⟨S8x64x1, .f32⟩
  | .hbm, ⟨63, _⟩ => ⟨S8x64x1, .f32⟩
  | .hbm, ⟨64, _⟩ => ⟨S_, .i32⟩
  | .hbm, ⟨65, _⟩ => ⟨S_, .f32⟩
  | .hbm, ⟨66, _⟩ => ⟨S8x64, .f32⟩
  | .hbm, ⟨67, _⟩ => ⟨S8x64x1, .f32⟩
  | .hbm, ⟨68, _⟩ => ⟨S_, .f32⟩
  | .hbm, ⟨69, _⟩ => ⟨S8x64x1, .f32⟩
  | .hbm, ⟨70, _⟩ => ⟨S8x64x1, .f32⟩
  | .hbm, ⟨71, _⟩ => ⟨S8x64x1024, .f32⟩
  | .hbm, ⟨72, _⟩ => ⟨S8x64x1024, .f32⟩
  | .hbm, ⟨73, _⟩ => ⟨S8x64x1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8x64, .f32⟩
  | .hbm, ⟨79, _⟩ => ⟨S8x64x1, .f32⟩
  | .hbm, ⟨80, _⟩ => ⟨S8x64x1, .f32⟩
  | .hbm, ⟨81, _⟩ => ⟨S8x64x1, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S8x64x1, .f32⟩
  | .hbm, ⟨87, _⟩ => ⟨S8x64x1, .f32⟩
  | .hbm, ⟨88, _⟩ => ⟨S8x64x1024, .f32⟩
  | .hbm, ⟨89, _⟩ => ⟨S8x64x1024, .f32⟩
  | .hbm, ⟨90, _⟩ => ⟨S_, .f32⟩
  | .hbm, ⟨91, _⟩ => ⟨S8x64x1, .f32⟩
  | .hbm, ⟨92, _⟩ => ⟨S8x64x1, .f32⟩
  | .hbm, ⟨93, _⟩ => ⟨S8x64x1, .f32⟩
  | .hbm, ⟨94, _⟩ => ⟨S8x64x1024, .f32⟩
  | .hbm, ⟨95, _⟩ => ⟨S8x64x1024, .f32⟩
  | .hbm, ⟨96, _⟩ => ⟨S1x1x1024, .f32⟩
  | .hbm, ⟨97, _⟩ => ⟨S8x64x1024, .f32⟩
  | .hbm, ⟨98, _⟩ => ⟨S8x64x1024, .f32⟩
  | .hbm, ⟨99, _⟩ => ⟨S1x1x1024, .f32⟩
  | .hbm, ⟨100, _⟩ => ⟨S8x64x1024, .f32⟩
  | .hbm, ⟨101, _⟩ => ⟨S8x64x1024, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v3 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_cst : Ref sig .tc := ⟨.hbm, 58, rfl⟩
abbrev main_v8 : Ref sig .tc := ⟨.hbm, 59, rfl⟩
abbrev main_v9 : Ref sig .tc := ⟨.hbm, 60, rfl⟩
abbrev main_cst_0 : Ref sig .tc := ⟨.hbm, 61, rfl⟩
abbrev main_v10 : Ref sig .tc := ⟨.hbm, 62, rfl⟩
abbrev main_v11 : Ref sig .tc := ⟨.hbm, 63, rfl⟩
abbrev main_c_1 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_cst_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_cst_1 : Ref sig .tc := ⟨.hbm, 75, rfl⟩
abbrev main_call2_v8 : Ref sig .tc := ⟨.hbm, 76, rfl⟩
abbrev main_call2_cst_2 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_cst_3 : Ref sig .tc := ⟨.hbm, 82, rfl⟩
abbrev main_call2_v13 : Ref sig .tc := ⟨.hbm, 83, rfl⟩
abbrev main_call2_cst_4 : Ref sig .tc := ⟨.hbm, 84, rfl⟩
abbrev main_call2_call0_v0 : Ref sig .tc := ⟨.hbm, 85, rfl⟩
abbrev main_call2_call0_v1 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_cst_2 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩

abbrev nD : Nat := 1
abbrev τ : Topo := Topo.v7x

variable {F : FTy → Type} [FloatOps F]

class Facts₀ : Prop where
  bcast_S64_S8x64_1 : S64.BroadcastsInDim S8x64 (![1] : Fin 1 → Fin S8x64.rank)
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S_S8x64x1 : S_.BroadcastsInDim S8x64x1 (![] : Fin 0 → Fin S8x64x1.rank)
  bcast_S1_S1x1x1_2 : S1.BroadcastsInDim S1x1x1 (![2] : Fin 1 → Fin S1x1x1.rank)
  bcast_S1x1x1_S8x64x1_0_1_2 : S1x1x1.BroadcastsInDim S8x64x1 (![0, 1, 2] : Fin 3 → Fin S8x64x1.rank)
  reducesTo_S8x64x1_S8x64_d2 : S8x64x1.ReducesTo [2] S8x64
  h_S_ : 0 < S_.numel
  bcast_S8x64_S8x64x1024_0_1 : S8x64.BroadcastsInDim S8x64x1024 (![0, 1] : Fin 2 → Fin S8x64x1024.rank)
  bcast_S_S8x64x1024 : S_.BroadcastsInDim S8x64x1024 (![] : Fin 0 → Fin S8x64x1024.rank)
  transposes_S8x1024x64_S8x64x1024_0_2_1 : S8x1024x64.Transposes [0, 2, 1] S8x64x1024
  reducesTo_S8x64x1024_S8x64_d2 : S8x64x1024.ReducesTo [2] S8x64
  bcast_S8x64x1_S8x64x1024_0_1_2 : S8x64x1.BroadcastsInDim S8x64x1024 (![0, 1, 2] : Fin 3 → Fin S8x64x1024.rank)
  bcast_S1024_S1x1x1024_2 : S1024.BroadcastsInDim S1x1x1024 (![2] : Fin 1 → Fin S1x1x1024.rank)
  bcast_S1x1x1024_S8x64x1024_0_1_2 : S1x1x1024.BroadcastsInDim S8x64x1024 (![0, 1, 2] : Fin 3 → Fin S8x64x1024.rank)
  gather_S64x1024_S8x64x1_S8x64x1024_2_0_n_n_0_2_11024_wf : GatherDims.WF S64x1024 S8x64x1 S8x64x1024 [2] [0] [] [0] [] 2 ![1, 1024]

variable [Facts₀]

def gather_S64x1024_S8x64x1_S8x64x1024_2_0_n_n_0_2_11024 : GatherDims S64x1024 S8x64x1 S8x64x1024 where
  offsetDims := [2]
  collapsedSliceDims := [0]
  operandBatchingDims := []
  startIndicesBatchingDims := []
  startIndexMap := [0]
  indexVectorDim := 2
  sliceSizes := ![1, 1024]
  wf := gather_S64x1024_S8x64x1_S8x64x1024_2_0_n_n_0_2_11024_wf

class Facts : Prop extends Facts₀ where

variable [Facts]
-- ==== Proof.Spec.lean ====
/-
  The mathematics both programs compute, over the extended reals.

  For a batch element b, a sequence position s and a hidden coordinate h the embedding is
      e[b,s,h] = x[b,h,s] + pos[s,h] + tok[1,h],
  the row mean is  mean[b,s] = (sum over h of e[b,s,h]) / 1024, the row variance is
      var[b,s] = (sum over h of (e[b,s,h] - mean[b,s])^2) / 1024,
  and the result is the layer normalisation
      out[b,s,h] = (e[b,s,h] - mean[b,s]) * rsqrt (var[b,s] + eps) * gamma[h] + beta[h].
  The variance is a sum of squares over a positive constant, so var + eps is strictly positive on every
  extended real input; there multiplying by the reciprocal square root and dividing by the square root agree.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The hidden size as the float constant both programs divide by. -/
def c1024 : EReal := Ideal.ofBits .f32 0x44800000#32

/-- The float constant both programs add under the square root. -/
def ceps : EReal := Ideal.ofBits .f32 0x2B8CBCCC#32

theorem c1024_eq : c1024 = ((1024 : ℝ) : EReal) := by
  unfold c1024
  simp [Ideal.ofBits, Ideal.ieee, -EReal.coe_mul]; norm_num

theorem ceps_eq : ceps = (((9223372 : ℝ) * (2 : ℝ) ^ (-63 : Int) : ℝ) : EReal) := by
  unfold ceps
  simp [Ideal.ofBits, Ideal.ieee, -EReal.coe_mul]

theorem ceps_pos : 0 < ceps := by
  rw [ceps_eq]
  have : (0 : ℝ) < (9223372 : ℝ) * (2 : ℝ) ^ (-63 : Int) := by positivity
  exact_mod_cast this

theorem c1024_ne_zero : ((1024 : ℝ) : EReal) ≠ 0 := by
  have : (1024 : ℝ) ≠ 0 := by norm_num
  exact_mod_cast this

/-- Dividing by the hidden size is multiplying by its reciprocal, on every extended real. -/
theorem div_c1024 (x : EReal) : Ideal.div x c1024 = x * ((1 / 1024 : ℝ) : EReal) := by
  rw [c1024_eq]; exact Ideal.div_coe (by norm_num) x

theorem mul_self_nonneg (x : EReal) : 0 ≤ x * x := by
  induction x using EReal.rec with
  | bot => simp
  | top => simp
  | coe r => rw [← EReal.coe_mul]; exact_mod_cast _root_.mul_self_nonneg r

/-- A sum of squares over the hidden size is not negative. -/
theorem div_c1024_nonneg {x : EReal} (hx : 0 ≤ x) : 0 ≤ Ideal.div x c1024 := by
  rw [div_c1024]
  have h : (0 : EReal) ≤ ((1 / 1024 : ℝ) : EReal) := by
    have : (0 : ℝ) ≤ 1 / 1024 := by norm_num
    exact_mod_cast this
  exact mul_nonneg hx h

/-- Where the argument is strictly positive, the quotient by the square root is the product with the
    reciprocal square root (at +infinity both sides are the product with 0). -/
theorem div_sqrt_eq_mul_rsqrt {y : EReal} (hy : 0 < y) (x : EReal) :
    Ideal.div x (Ideal.sqrt y) = x * Ideal.rsqrt y := by
  induction y using EReal.rec with
  | bot => exact absurd hy (not_lt.mpr bot_le)
  | top =>
    rw [Ideal.sqrt_top, Ideal.rsqrt_top, Ideal.div, if_neg (by simp), EReal.inv_top]
  | coe r =>
    have hr : 0 < r := by exact_mod_cast hy
    have hs : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hs.ne'), ← EReal.coe_inv]

variable (x : (⟨3, ![8, 1024, 64]⟩ : Shape).Idx → EReal) (pos tok : (⟨2, ![64, 1024]⟩ : Shape).Idx → EReal)
  (g be : (⟨1, ![1024]⟩ : Shape).Idx → EReal)

/-- The embedding: the transposed feature plus the position row plus the token-type row of index 1. -/
def emb (b : Fin 8) (s : Fin 64) (h : Fin 1024) : EReal :=
  x (ix3 b h s) + pos (ix2 s h) + tok (ix2 (1 : Fin 64) h)

/-- The mean of a row of the embedding. -/
def mean (b : Fin 8) (s : Fin 64) : EReal := Ideal.div (∑ h : Fin 1024, emb x pos tok b s h) c1024

/-- The variance of a row of the embedding. -/
def var (b : Fin 8) (s : Fin 64) : EReal :=
  Ideal.div (∑ h : Fin 1024, (emb x pos tok b s h - mean x pos tok b s) * (emb x pos tok b s h - mean x pos tok b s)) c1024

theorem var_nonneg (b : Fin 8) (s : Fin 64) : 0 ≤ var x pos tok b s :=
  div_c1024_nonneg (Finset.sum_nonneg fun _ _ => mul_self_nonneg _)

theorem var_add_eps_pos (b : Fin 8) (s : Fin 64) : 0 < var x pos tok b s + ceps :=
  lt_of_lt_of_le ceps_pos (le_add_of_nonneg_left (var_nonneg x pos tok b s))

/-- The layer normalisation of the embedding, one element. -/
def layerNorm (b : Fin 8) (s : Fin 64) (h : Fin 1024) : EReal :=
  (emb x pos tok b s h - mean x pos tok b s) * Ideal.rsqrt (var x pos tok b s + ceps) * g (ix1 h) + be (ix1 h)

/-- The same with the quotient by the square root in place of the reciprocal square root. -/
theorem layerNorm_eq_div (b : Fin 8) (s : Fin 64) (h : Fin 1024) :
    Ideal.div (emb x pos tok b s h - mean x pos tok b s) (Ideal.sqrt (var x pos tok b s + ceps)) * g (ix1 h) + be (ix1 h)
      = layerNorm x pos tok g be b s h := by
  unfold layerNorm
  rw [div_sqrt_eq_mul_rsqrt (var_add_eps_pos x pos tok b s)]

/-- The whole result array. -/
def out : (⟨3, ![8, 64, 1024]⟩ : Shape).Idx → EReal :=
  fun i => layerNorm x pos tok g be (i 0) (i 1) (i 2)

theorem out_ix3 (b : Fin 8) (s : Fin 64) (h : Fin 1024) : out x pos tok g be (ix3 b s h) = layerNorm x pos tok g be b s h := rfl

end Cert.Spec

end
-- ==== Proof.KernelPoint.lean ====
/-
  One grid point of the kernel, read at an index, over the extended reals.

  The body loads the point's feature block P0 : [1, 1024, 64], the position table P1 : [64, 1024] and three rows
  P2, P3, P4 : [1, 1024] (token-type row, scale, shift). With  e[s,k] = P0[0,k,s] + (P1[s,k] + P2[0,k])  it stores,
  at [0, s, h],
      (e[s,h] - mean[s]) * rsqrt (var[s] + eps) * P3[0,h] + P4[0,h],
  where mean[s] = (sum over k of e[s,k]) / 1024 and var[s] = (sum over k of (e[s,k] - mean[s])^2) / 1024.
-/
import proofs.«149981_g45715631898817_cont_8to1c4_635_5_alg».proof.Proof.Gen.KernelIdeal.Value
import proofs.«149981_g45715631898817_cont_8to1c4_635_5_alg».proof.Proof.Spec
import Idealize.ShloMosaic.Lib.ValueIdx
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.ValueIdx Idealize.ShloMosaic.Pipeline
open scoped BigOperators

/-- The transposed feature block plus the position table plus the broadcast token-type row, at [s, k]. -/
theorem embBlock_apply (P0 : Vec Ideal S1x1024x64 .f32) (P1 : Vec Ideal S64x1024 .f32) (P2 : Vec Ideal S1x1024 .f32)
    (s : Fin 64) (k : Fin 1024) :
    (addf (F := Ideal) (φ := .f32) (transpose S64x1024 [1, 0] (shapeCast S1024x64 P0 shapeCasts_S1x1024x64_S1024x64) transposes_S1024x64_p1_0_S64x1024)
        (addf (F := Ideal) (φ := .f32) P1 (broadcastTo S64x1024 (shapeCast S1x1024 P2 shapeCasts_S1x1024_S1x1024) broadcasts_S1x1024_S64x1024))) (ix2 s k)
      = P0 (ix3 (0 : Fin 1) k s) + (P1 (ix2 s k) + P2 (ix2 (0 : Fin 1) k)) := by
  have e1 : (transpose S64x1024 [1, 0] (shapeCast S1024x64 P0 shapeCasts_S1x1024x64_S1024x64) transposes_S1024x64_p1_0_S64x1024) (ix2 s k)
      = P0 (ix3 (0 : Fin 1) k s) := by
    refine (transpose_apply [1, 0] _ _ (ix2 s k) (ix2 k s) (fun b => match b with | ⟨0, _⟩ => rfl | ⟨1, _⟩ => rfl)).trans ?_
    exact shapeCast_apply _ _ (ix2 k s) (ix3 (0 : Fin 1) k s) (by
      rw [Shape.rowMajor_val_three, Shape.rowMajor_val_two]
      show (0 * 1024 + k.val) * 64 + s.val = k.val * 64 + s.val
      omega)
  have e2 : (broadcastTo S64x1024 (shapeCast S1x1024 P2 shapeCasts_S1x1024_S1x1024) broadcasts_S1x1024_S64x1024) (ix2 s k)
      = P2 (ix2 (0 : Fin 1) k) := by
    refine (broadcastTo_apply _ _ (ix2 s k) (ix2 (0 : Fin 1) k) (fun a => match a with
      | ⟨0, _⟩ => by show 0 = (if (1 : Nat) = 1 then 0 else s.val); rw [if_pos rfl]
      | ⟨1, _⟩ => by show k.val = (if (1024 : Nat) = 1 then 0 else k.val); rw [if_neg (by decide)])).trans ?_
    exact shapeCast_apply _ _ (ix2 (0 : Fin 1) k) (ix2 (0 : Fin 1) k) rfl
  show ((transpose S64x1024 [1, 0] (shapeCast S1024x64 P0 shapeCasts_S1x1024x64_S1024x64) transposes_S1024x64_p1_0_S64x1024) (ix2 s k) : EReal)
      + ((P1 (ix2 s k) : EReal) + ((broadcastTo S64x1024 (shapeCast S1x1024 P2 shapeCasts_S1x1024_S1x1024) broadcasts_S1x1024_S64x1024) (ix2 s k) : EReal)) = _
  rw [e1, e2]

/-- A lane sum over the second axis of a [64, 1024] vector, at row s, is the sum over the 1024 columns. -/
theorem rowSum_apply (v : FVec Ideal S64x1024 .f32) (hφ : FKind.Formats .f32) (hacc : (0x00000000#32 : BitVec 32) = 0x00000000#32)
    (s : Fin 64) :
    multiReduction .add [1] S64 v 0x00000000#32 reduces_S64x1024_S64 hφ hacc (ix1 s) = ∑ k : Fin 1024, v (ix2 s k) := by
  refine (Ideal.multiReduction_add_single v 0x00000000#32 reduces_S64x1024_S64 hφ hacc (ix1 s)).trans ?_
  refine Finset.sum_congr rfl fun k _ => congrArg v ?_
  funext a
  apply Fin.ext
  match a with
  | ⟨0, _⟩ => rfl
  | ⟨1, _⟩ => rfl

/-- A [64, 1024] vector minus the column of a row statistic over the hidden size, at [s, k]. -/
theorem center_apply (v : FVec Ideal S64x1024 .f32) (r : FVec Ideal S64 .f32) (s : Fin 64) (k : Fin 1024) :
    (subf v (broadcastTo S64x1024 (divf (shapeCast S64x1 r shapeCasts_S64_S64x1) (broadcast S64x1 (Scalar.ofBits .f32 0x44800000#32)))
        broadcasts_S64x1_S64x1024)) (ix2 s k)
      = v (ix2 s k) - Ideal.div (r (ix1 s)) Cert.Spec.c1024 := by
  have e1 : (broadcastTo S64x1024 (divf (shapeCast S64x1 r shapeCasts_S64_S64x1) (broadcast S64x1 (Scalar.ofBits .f32 0x44800000#32)))
        broadcasts_S64x1_S64x1024) (ix2 s k)
      = (divf (shapeCast S64x1 r shapeCasts_S64_S64x1) (broadcast S64x1 (Scalar.ofBits .f32 0x44800000#32))) (ix2 s (0 : Fin 1)) :=
    broadcastTo_apply _ _ (ix2 s k) (ix2 s (0 : Fin 1)) (fun a => match a with
      | ⟨0, _⟩ => by show s.val = (if (64 : Nat) = 1 then 0 else s.val); rw [if_neg (by decide)]
      | ⟨1, _⟩ => by show 0 = (if (1 : Nat) = 1 then 0 else k.val); rw [if_pos rfl])
  have e2 : (shapeCast S64x1 r shapeCasts_S64_S64x1) (ix2 s (0 : Fin 1)) = r (ix1 s) :=
    shapeCast_apply _ _ (ix2 s (0 : Fin 1)) (ix1 s) (by
      rw [Shape.rowMajor_val_one, Shape.rowMajor_val_two]
      show s.val = s.val * 1 + 0
      omega)
  show v (ix2 s k) - (broadcastTo S64x1024 (divf (shapeCast S64x1 r shapeCasts_S64_S64x1) (broadcast S64x1 (Scalar.ofBits .f32 0x44800000#32)))
        broadcasts_S64x1_S64x1024) (ix2 s k) = _
  rw [e1]
  show v (ix2 s k) - Ideal.div ((shapeCast S64x1 r shapeCasts_S64_S64x1) (ix2 s (0 : Fin 1))) (Ideal.ofBits .f32 0x44800000#32) = _
  rw [e2]
  rfl

variable (P0 : Vec Ideal S1x1024x64 .f32) (P1 : Vec Ideal S64x1024 .f32) (P2 P3 P4 : Vec Ideal S1x1024 .f32)

/-- The block's embedding as the body builds it. -/
abbrev embV : FVec Ideal S64x1024 .f32 :=
  addf (F := Ideal) (φ := .f32) (transpose S64x1024 [1, 0] (shapeCast S1024x64 P0 shapeCasts_S1x1024x64_S1024x64) transposes_S1024x64_p1_0_S64x1024)
    (addf (F := Ideal) (φ := .f32) P1 (broadcastTo S64x1024 (shapeCast S1x1024 P2 shapeCasts_S1x1024_S1x1024) broadcasts_S1x1024_S64x1024))

/-- The block's embedding minus its row means, as the body builds it. -/
abbrev cenV : FVec Ideal S64x1024 .f32 :=
  subf (embV P0 P1 P2)
    (broadcastTo S64x1024
      (divf (shapeCast S64x1 (multiReduction (F := Ideal) .add [1] S64 (embV P0 P1 P2) 0x00000000#32 reduces_S64x1024_S64 (.inl rfl) rfl) shapeCasts_S64_S64x1)
        (broadcast S64x1 (Scalar.ofBits .f32 0x44800000#32)))
      broadcasts_S64x1_S64x1024)

/-- The block's embedding at [s, k]. -/
def embB (s : Fin 64) (k : Fin 1024) : EReal := P0 (ix3 (0 : Fin 1) k s) + (P1 (ix2 s k) + P2 (ix2 (0 : Fin 1) k))

/-- The block's row mean. -/
def meanB (s : Fin 64) : EReal := Ideal.div (∑ k : Fin 1024, embB P0 P1 P2 s k) Cert.Spec.c1024

/-- The block's row variance. -/
def varB (s : Fin 64) : EReal :=
  Ideal.div (∑ k : Fin 1024, (embB P0 P1 P2 s k - meanB P0 P1 P2 s) * (embB P0 P1 P2 s k - meanB P0 P1 P2 s)) Cert.Spec.c1024

/-- WHAT THE BODY LEAVES at [0, s, h] of the output block, as a function of the loaded blocks. -/
theorem E5_apply (s : Fin 64) (h : Fin 1024) :
    Cert.KernelIdeal.Value.E5 (F := Ideal) P0 P1 P2 P3 P4 (ix3 (0 : Fin 1) s h)
      = (embB P0 P1 P2 s h - meanB P0 P1 P2 s) * Ideal.rsqrt (varB P0 P1 P2 s + Cert.Spec.ceps) * P3 (ix2 (0 : Fin 1) h)
          + P4 (ix2 (0 : Fin 1) h) := by
  have i0 : Cert.KernelIdeal.Value.ix5_0 (ix3 (0 : Fin 1) s h) = ix3 (0 : Fin 1) h s := by
    funext a; apply Fin.ext
    match a with
    | ⟨0, _⟩ => rfl
    | ⟨1, _⟩ => rfl
    | ⟨2, _⟩ => rfl
  have i1 : Cert.KernelIdeal.Value.ix5_1 (ix3 (0 : Fin 1) s h) = ix2 s h := by
    funext a; apply Fin.ext
    match a with
    | ⟨0, _⟩ => rfl
    | ⟨1, _⟩ => rfl
  have i2 : Cert.KernelIdeal.Value.ix5_2 (ix3 (0 : Fin 1) s h) = ix2 (0 : Fin 1) h := by
    funext a; apply Fin.ext
    match a with
    | ⟨0, _⟩ => rfl
    | ⟨1, _⟩ => rfl
  have i3 : Cert.KernelIdeal.Value.ix5_3 (ix3 (0 : Fin 1) s h) = ix1 s := by
    funext a; apply Fin.ext
    match a with
    | ⟨0, _⟩ => rfl
  have i4 : Cert.KernelIdeal.Value.ix5_4 (ix3 (0 : Fin 1) s h) = ix1 s := by
    funext a; apply Fin.ext
    match a with
    | ⟨0, _⟩ => rfl
  have i5 : Cert.KernelIdeal.Value.ix5_5 (ix3 (0 : Fin 1) s h) = ix2 (0 : Fin 1) h := by
    funext a; apply Fin.ext
    match a with
    | ⟨0, _⟩ => rfl
    | ⟨1, _⟩ => rfl
  have i6 : Cert.KernelIdeal.Value.ix5_6 (ix3 (0 : Fin 1) s h) = ix2 (0 : Fin 1) h := by
    funext a; apply Fin.ext
    match a with
    | ⟨0, _⟩ => rfl
    | ⟨1, _⟩ => rfl
  dsimp only [Cert.KernelIdeal.Value.E5]
  rw [i0, i1, i2, i3, i4, i5, i6]
  have hE : ∀ k : Fin 1024, embV P0 P1 P2 (ix2 s k) = embB P0 P1 P2 s k := fun k => embBlock_apply P0 P1 P2 s k
  have hM : multiReduction (F := Ideal) .add [1] S64 (embV P0 P1 P2) 0x00000000#32 reduces_S64x1024_S64 (.inl rfl) rfl (ix1 s)
      = ∑ k : Fin 1024, embB P0 P1 P2 s k :=
    (rowSum_apply _ _ _ s).trans (Finset.sum_congr rfl fun k _ => hE k)
  have hD : ∀ k : Fin 1024, cenV P0 P1 P2 (ix2 s k) = embB P0 P1 P2 s k - meanB P0 P1 P2 s := fun k => by
    refine (center_apply (embV P0 P1 P2) _ s k).trans ?_
    rw [hE k, hM]
    rfl
  have hV : multiReduction (F := Ideal) .add [1] S64 (mulf (cenV P0 P1 P2) (cenV P0 P1 P2)) 0x00000000#32 reduces_S64x1024_S64 (.inl rfl) rfl (ix1 s)
      = ∑ k : Fin 1024, (embB P0 P1 P2 s k - meanB P0 P1 P2 s) * (embB P0 P1 P2 s k - meanB P0 P1 P2 s) :=
    (rowSum_apply _ _ _ s).trans (Finset.sum_congr rfl fun k _ => by
      show cenV P0 P1 P2 (ix2 s k) * cenV P0 P1 P2 (ix2 s k) = _
      rw [hD k])
  show ((P0 (ix3 (0 : Fin 1) h s) + (P1 (ix2 s h) + P2 (ix2 (0 : Fin 1) h))
        - Ideal.div (multiReduction (F := Ideal) .add [1] S64 (embV P0 P1 P2) 0x00000000#32 reduces_S64x1024_S64 (.inl rfl) rfl (ix1 s)) Cert.Spec.c1024)
      * Ideal.rsqrt (Ideal.div (multiReduction (F := Ideal) .add [1] S64 (mulf (cenV P0 P1 P2) (cenV P0 P1 P2)) 0x00000000#32 reduces_S64x1024_S64 (.inl rfl) rfl (ix1 s)) Cert.Spec.c1024
          + Cert.Spec.ceps)
      * P3 (ix2 (0 : Fin 1) h) + P4 (ix2 (0 : Fin 1) h) : EReal) = _
  rw [hM, hV]
  rfl

end Cert.KernelIdeal.Point

end
-- ==== Proof.KernelValue.lean ====
/-
  The kernel's result array after the run, over the extended reals.

  Grid point t of the 8 stages the feature block x[t, :, :], the whole position table, and three rows that the
  host made before the launch: row 1 of the token-type table, the scale and the shift as [1, 1024] arrays. What the
  body leaves in the output block at [0, s, h] is the layer normalisation of the embedding row
  e[s, k] = x[t, k, s] + (pos[s, k] + tok[1, k]); addition on the extended reals is associative, so this is the
  specification's row (x + pos) + tok. Block t of the result is [t, :, :], and the 8 blocks cover the array.
-/
import proofs.«149981_g45715631898817_cont_8to1c4_635_5_alg».proof.Proof.KernelPoint
import Idealize.ShloMosaic.Lib.StableHlo.Run

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-! ## The three rows the host makes before the launch -/

/-- The token-type operand is row 1 of the token-type table. -/
theorem V_tokRow (c : Dev nD) : (V m c main_v2 : S1x1024.Idx → EReal)
    = extractStridedSlice S1x1024 ![1, 0] (m ((c : Thread nD τ).loc main_arg2)) slices_S64x1024_S1x1024_1_0 := by
  dsimp only [Gen.V, Gen.hostOps0]
  after_results

/-- The scale operand is the scale vector with a leading unit axis. -/
theorem V_scale (c : Dev nD) : (V m c main_v0 : S1x1024.Idx → EReal)
    = shapeCast S1x1024 (m ((c : Thread nD τ).loc main_arg3)) shapeCasts_S1024_S1x1024 := by
  dsimp only [Gen.V, Gen.hostOps0]
  after_results
  rfl

/-- The shift operand is the shift vector with a leading unit axis. -/
theorem V_shift (c : Dev nD) : (V m c main_v1 : S1x1024.Idx → EReal)
    = shapeCast S1x1024 (m ((c : Thread nD τ).loc main_arg4)) shapeCasts_S1024_S1x1024 := by
  dsimp only [Gen.V, Gen.hostOps0]
  after_results
  rfl

/-! ## The blocks a grid point stages -/

/-- The index maps over the grid: the feature and result blocks move with the point along axis 0, the other
    operands are staged whole. -/
theorem index_facts : ∀ t : Fin cfg0.N, win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 8 := by
  have h := t.isLt
  have h8 : cfg0.N = 8 := N_0
  omega

/-- The batch element a grid point works on. -/
abbrev batchOf (t : Fin cfg0.N) : Fin 8 := ⟨t.val, point_lt t⟩

/-- The feature block of point t at [0, k, s] is x[t, k, s]. -/
theorem featBlock_apply (c : Dev nD) (t : Fin cfg0.N) (k : Fin 1024) (s : Fin 64) :
    (iblk m c 0 t : S1x1024x64.Idx → EReal) (ix3 (0 : Fin 1) k s)
      = m ((c : Thread nD τ).loc main_arg0) (ix3 (batchOf t) k s) := by
  show V m c main_arg0 (((cfg0.win 0).blk t).view.emb (ix3 (0 : Fin 1) k s)) = _
  rw [V_main_arg0]
  refine congrArg _ ?_
  funext a; apply Fin.ext
  obtain ⟨e0, e1, e2, -⟩ := index_facts t
  match a with
  | ⟨0, _⟩ => show win0_0.index t (0 : Fin 3) * 1 + 1 * 0 = t.val; omega
  | ⟨1, _⟩ => show win0_0.index t (1 : Fin 3) * 1024 + 1 * k.val = k.val; omega
  | ⟨2, _⟩ => show win0_0.index t (2 : Fin 3) * 64 + 1 * s.val = s.val; omega

/-- The position block of any point is the whole position table. -/
theorem posBlock_apply (c : Dev nD) (t : Fin cfg0.N) (s : Fin 64) (k : Fin 1024) :
    (iblk m c 1 t : S64x1024.Idx → EReal) (ix2 s k) = m ((c : Thread nD τ).loc main_arg1) (ix2 s k) := by
  show V m c main_arg1 (((cfg0.win 1).blk t).view.emb (ix2 s k)) = _
  rw [V_main_arg1]
  refine congrArg _ ?_
  funext a; apply Fin.ext
  obtain ⟨-, -, -, -, -, -, e0, e1, -⟩ := index_facts t
  match a with
  | ⟨0, _⟩ => show win0_1.index t (0 : Fin 2) * 64 + 1 * s.val = s.val; omega
  | ⟨1, _⟩ => show win0_1.index t (1 : Fin 2) * 1024 + 1 * k.val = k.val; omega

/-- A [1, 1024] operand staged whole: the block at [0, k] is the array at [0, k]. -/
theorem rowBlock_emb2 (t : Fin cfg0.N) (k : Fin 1024) : ((cfg0.win 2).blk t).view.emb (ix2 (0 : Fin 1) k) = ix2 (0 : Fin 1) k := by
  funext a; apply Fin.ext
  obtain ⟨-, -, -, -, -, -, -, -, e0, e1, -⟩ := index_facts t
  match a with
  | ⟨0, _⟩ => show win0_2.index t (0 : Fin 2) * 1 + 1 * 0 = 0; omega
  | ⟨1, _⟩ => show win0_2.index t (1 : Fin 2) * 1024 + 1 * k.val = k.val; omega

theorem rowBlock_emb3 (t : Fin cfg0.N) (k : Fin 1024) : ((cfg0.win 3).blk t).view.emb (ix2 (0 : Fin 1) k) = ix2 (0 : Fin 1) k := by
  funext a; apply Fin.ext
  obtain ⟨-, -, -, -, -, -, -, -, -, -, e0, e1, -⟩ := index_facts t
  match a with
  | ⟨0, _⟩ => show win0_3.index t (0 : Fin 2) * 1 + 1 * 0 = 0; omega
  | ⟨1, _⟩ => show win0_3.index t (1 : Fin 2) * 1024 + 1 * k.val = k.val; omega

theorem rowBlock_emb4 (t : Fin cfg0.N) (k : Fin 1024) : ((cfg0.win 4).blk t).view.emb (ix2 (0 : Fin 1) k) = ix2 (0 : Fin 1) k := by
  funext a; apply Fin.ext
  obtain ⟨-, -, -, -, -, -, -, -, -, -, -, -, e0, e1⟩ := index_facts t
  match a with
  | ⟨0, _⟩ => show win0_4.index t (0 : Fin 2) * 1 + 1 * 0 = 0; omega
  | ⟨1, _⟩ => show win0_4.index t (1 : Fin 2) * 1024 + 1 * k.val = k.val; omega

/-- The token-type block at [0, k] is tok[1, k]. -/
theorem tokBlock_apply (c : Dev nD) (t : Fin cfg0.N) (k : Fin 1024) :
    (iblk m c 2 t : S1x1024.Idx → EReal) (ix2 (0 : Fin 1) k) = m ((c : Thread nD τ).loc main_arg2) (ix2 (1 : Fin 64) k) := by
  show V m c main_v2 (((cfg0.win 2).blk t).view.emb (ix2 (0 : Fin 1) k)) = _
  rw [rowBlock_emb2, V_tokRow]
  exact extractStridedSlice_apply _ _ _ (ix2 (0 : Fin 1) k) (ix2 (1 : Fin 64) k) (fun a => match a with
    | ⟨0, _⟩ => rfl
    | ⟨1, _⟩ => by show k.val = 0 + k.val; omega)

/-- The scale block at [0, k] is gamma[k]. -/
theorem scaleBlock_apply (c : Dev nD) (t : Fin cfg0.N) (k : Fin 1024) :
    (iblk m c 3 t : S1x1024.Idx → EReal) (ix2 (0 : Fin 1) k) = m ((c : Thread nD τ).loc main_arg3) (ix1 k) := by
  show V m c main_v0 (((cfg0.win 3).blk t).view.emb (ix2 (0 : Fin 1) k)) = _
  rw [rowBlock_emb3, V_scale]
  exact shapeCast_apply _ _ (ix2 (0 : Fin 1) k) (ix1 k) (by
    rw [Shape.rowMajor_val_one, Shape.rowMajor_val_two]
    show k.val = 0 * 1024 + k.val
    omega)

/-- The shift block at [0, k] is beta[k]. -/
theorem shiftBlock_apply (c : Dev nD) (t : Fin cfg0.N) (k : Fin 1024) :
    (iblk m c 4 t : S1x1024.Idx → EReal) (ix2 (0 : Fin 1) k) = m ((c : Thread nD τ).loc main_arg4) (ix1 k) := by
  show V m c main_v1 (((cfg0.win 4).blk t).view.emb (ix2 (0 : Fin 1) k)) = _
  rw [rowBlock_emb4, V_shift]
  exact shapeCast_apply _ _ (ix2 (0 : Fin 1) k) (ix1 k) (by
    rw [Shape.rowMajor_val_one, Shape.rowMajor_val_two]
    show k.val = 0 * 1024 + k.val
    omega)

/-! ## What a point writes back -/

/-- The result array of the specification, of core c's five argument arrays. -/
abbrev specOut (c : Dev nD) : S8x64x1024.Idx → EReal :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4))

theorem hz3 : (![0, 0, 0] : Fin 3 → Nat) = fun _ => 0 := funext fun a => by fin_cases a <;> rfl
theorem hz2 : (![0, 0] : Fin 2 → Nat) = fun _ => 0 := funext fun a => by fin_cases a <;> rfl

/-- The block's embedding row is the specification's. -/
theorem embB_eq (c : Dev nD) (t : Fin cfg0.N) (s : Fin 64) (k : Fin 1024) :
    Point.embB (iblk m c 0 t) (iblk m c 1 t) (iblk m c 2 t) s k
      = Cert.Spec.emb (m ((c : Thread nD τ).loc main_arg0)) (m ((c : Thread nD τ).loc main_arg1)) (m ((c : Thread nD τ).loc main_arg2)) (batchOf t) s k := by
  unfold Point.embB Cert.Spec.emb
  rw [featBlock_apply, posBlock_apply, tokBlock_apply, add_assoc]

/-- The block's row mean is the specification's. -/
theorem meanB_eq (c : Dev nD) (t : Fin cfg0.N) (s : Fin 64) :
    Point.meanB (iblk m c 0 t) (iblk m c 1 t) (iblk m c 2 t) s
      = Cert.Spec.mean (m ((c : Thread nD τ).loc main_arg0)) (m ((c : Thread nD τ).loc main_arg1)) (m ((c : Thread nD τ).loc main_arg2)) (batchOf t) s := by
  unfold Point.meanB Cert.Spec.mean
  exact congrArg (fun u => Ideal.div u Cert.Spec.c1024) (Finset.sum_congr rfl fun k _ => embB_eq m c t s k)

/-- The block's row variance is the specification's. -/
theorem varB_eq (c : Dev nD) (t : Fin cfg0.N) (s : Fin 64) :
    Point.varB (iblk m c 0 t) (iblk m c 1 t) (iblk m c 2 t) s
      = Cert.Spec.var (m ((c : Thread nD τ).loc main_arg0)) (m ((c : Thread nD τ).loc main_arg1)) (m ((c : Thread nD τ).loc main_arg2)) (batchOf t) s := by
  unfold Point.varB Cert.Spec.var
  refine congrArg (fun u => Ideal.div u Cert.Spec.c1024) (Finset.sum_congr rfl fun k _ => ?_)
  rw [embB_eq, meanB_eq]

/-- Where block index [0, s, h] of point t lies in the result array: [t, s, h]. -/
theorem outBlock_emb (t : Fin cfg0.N) (s : Fin 64) (h : Fin 1024) :
    ((cfg0.win 5).blk t).view.emb (ix3 (0 : Fin 1) s h) = ix3 (batchOf t) s h := by
  funext a; apply Fin.ext
  obtain ⟨-, -, -, e0, e1, e2, -⟩ := index_facts t
  match a with
  | ⟨0, _⟩ => show win0_5.index t (0 : Fin 3) * 1 + 1 * 0 = t.val; omega
  | ⟨1, _⟩ => show win0_5.index t (1 : Fin 3) * 64 + 1 * s.val = s.val; omega
  | ⟨2, _⟩ => show win0_5.index t (2 : Fin 3) * 1024 + 1 * h.val = h.val; omega

/-- What the body leaves at block index j of point t is the specification at the array index under it. -/
theorem point_eq (c : Dev nD) (t : Fin cfg0.N) (j : S1x64x1024.Idx) :
    View.canon ([⟨r0_3, k0_pay1 (F := Ideal) (iblk m c 0 t) (iblk m c 1 t) (iblk m c 2 t) (iblk m c 3 t) (iblk m c 4 t)⟩] :
        List (View.Piece (Elt Ideal) S1x64x1024 .f32)) j
      = specOut m c (((cfg0.win 5).blk t).view.emb j) := by
  obtain ⟨z, s, h, rfl⟩ : ∃ (z : Fin 1) (s : Fin 64) (h : Fin 1024), j = ix3 z s h := ⟨j 0, j 1, j 2, eq_ix3 j⟩
  obtain rfl : z = 0 := Subsingleton.elim _ _
  refine (Cert.KernelIdeal.Value.canon5_eq (F := Ideal) (iblk m c 0 t) (iblk m c 1 t) (iblk m c 2 t) (iblk m c 3 t) (iblk m c 4 t) (ix3 (0 : Fin 1) s h)).trans ?_
  refine (Point.E5_apply (iblk m c 0 t) (iblk m c 1 t) (iblk m c 2 t) (iblk m c 3 t) (iblk m c 4 t) s h).trans ?_
  rw [outBlock_emb]
  show _ = Cert.Spec.layerNorm _ _ _ _ _ (batchOf t) s h
  unfold Cert.Spec.layerNorm
  rw [embB_eq, meanB_eq, varB_eq, scaleBlock_apply, shiftBlock_apply]

/-- WHAT POINT t WRITES BACK is block t of the specification's array. -/
theorem flushed_eq (c : Dev nD) (t : Fin cfg0.N) :
    (dats m 0 c).flushed 5 t = ((cfg0.win 5).blk t).view.read (Elt Ideal) (specOut m c) := by
  rw [Cert.KernelIdeal.Value.flushed5]
  unfold out0_5
  simp only [View.ld_unit_zero (S := S1x1024x64) hz3, View.ld_unit_zero (S := S64x1024) hz2, View.ld_unit_zero (S := S1x1024) hz2]
  funext j
  exact point_eq m c t j

/-! ## The blocks cover the array -/

/-- An index of the result array is in point t's block iff each coordinate is in the block's range. -/
theorem mem_outBlock (t : Fin cfg0.N) (i : S8x64x1024.Idx) :
    i ∈ ((cfg0.win 5).blk t).view.set ↔ ∀ a : Fin 3, win0_5.index t a * S1x64x1024.size a ≤ (i a).val ∧ (i a).val < win0_5.index t a * S1x64x1024.size a + S1x64x1024.size a := by
  show i ∈ ((View.whole main_v3).slice (win0_5.rect t)).set ↔ _
  rw [View.set_slice_whole, Rect.mem_set_unit]
  exact Iff.rfl

/-- Every index [b, s, h] of the result lies in the block of the point that works on batch element b. -/
theorem covered (i : S8x64x1024.Idx) : ∃ t : Fin cfg0.N, (cfg0.win 5).flush t = true ∧ i ∈ ((cfg0.win 5).blk t).view.set := by
  have hi0 : (i 0).val < 8 := (i 0).isLt
  have hi1 : (i 1).val < 64 := (i 1).isLt
  have hi2 : (i 2).val < 1024 := (i 2).isLt
  have h8 : cfg0.N = 8 := N_0
  refine ⟨⟨(i 0).val, by omega⟩, flush0_5 _, ?_⟩
  rw [mem_outBlock]
  obtain ⟨-, -, -, e0, e1, e2, -⟩ := index_facts ⟨(i 0).val, by omega⟩
  intro a
  match a with
  | ⟨0, _⟩ => show win0_5.index _ (0 : Fin 3) * 1 ≤ (i 0).val ∧ (i 0).val < win0_5.index _ (0 : Fin 3) * 1 + 1; simp only at e0; omega
  | ⟨1, _⟩ => show win0_5.index _ (1 : Fin 3) * 64 ≤ (i 1).val ∧ (i 1).val < win0_5.index _ (1 : Fin 3) * 64 + 64; omega
  | ⟨2, _⟩ => show win0_5.index _ (2 : Fin 3) * 1024 ≤ (i 2).val ∧ (i 2).val < win0_5.index _ (2 : Fin 3) * 1024 + 1024; omega

/-- THE RESULT ARRAY after the run is the specification's. -/
theorem final (c : Dev nD) : (dats m 0 c).arrAt 5 cfg0.N = specOut m c :=
  (dats m 0 c).arrAt_eq_of_cover 5 (specOut m c) (fun t _ => flushed_eq m c t) covered

/-- The kernel's run: the result buffer ends at the specification's array of the arguments, which end unchanged. -/
theorem run : θ_run defs (onTc (τ := τ) (main (F := Ideal))) ⟨m, fun _ => 0, ρ⟩ fun r => ∀ c : Dev nD,
      r.2.mem ((c : Thread nD τ).loc main_v3) = specOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefTerm.lean ====
/-
  The reference program's result as one pure term of its five argument arrays, written with the same vector
  operations the program applies, in the same order: two row lookups of an embedding table (the index
  normalised, range-checked, gathered, masked), their sum with the transposed feature array, the row mean,
  the row variance, and the normalisation.
-/
import proofs.«149981_g45715631898817_cont_8to1c4_635_5_alg».proof.Proof.Gen.ReferenceIdeal

noncomputable section

namespace Cert.ReferenceIdeal.Ref

open Cert.ReferenceIdeal Cert.ReferenceIdeal.Gen Idealize.ShloMosaic Idealize.SL.Sem

variable {F : FTy → Type} [FloatOps F]

/-- The start index of a row lookup: a negative index is wrapped by the table's 64 rows, and the result gets a
    trailing unit axis. -/
def takeStart (idx : IVec S8x64 32) : IVec S8x64x1 32 :=
  broadcastInDim S8x64x1 ![0, 1] bcast_S8x64_S8x64x1_0_1
    (select (cmpi .slt idx (broadcastInDim S8x64 ![] bcast_S_S8x64 (constantI S_ 32 0#32)))
      (addi idx (broadcastInDim S8x64 ![] bcast_S_S8x64 (constantI S_ 32 64#32))) idx)

/-- Whether a start index lies in the table's row range [0, 63]. -/
def takeInRange (st : IVec S8x64x1 32) : IVec S8x64 1 :=
  Host.reduce IntOp.andi
    (andi (cmpi .sge st (broadcastInDim S8x64x1 ![] bcast_S_S8x64x1 (constantI S_ 32 0#32)))
      (cmpi .sle st (broadcastInDim S8x64x1 ![0, 1, 2] bcast_S1x1x1_S8x64x1_0_1_2
        (broadcastInDim S1x1x1 ![2] bcast_S1_S1x1x1_2 (constantI S1 32 63#32)))))
    (constantI S_ 1 1#1) reducesTo_S8x64x1_S8x64_d2 h_S_

/-- Rows of a 64-row table looked up by an [8, 64] index array: the gathered row where the index is in range,
    the fill pattern elsewhere. -/
def takeRows (tbl : FVec F S64x1024 .f32) (idx : IVec S8x64 32) : FVec F S8x64x1024 .f32 :=
  select (broadcastInDim S8x64x1024 ![0, 1] bcast_S8x64_S8x64x1024_0_1 (takeInRange (takeStart idx)))
    (Host.gather gather_S64x1024_S8x64x1_S8x64x1024_2_0_n_n_0_2_11024 tbl (takeStart idx))
    (broadcastInDim S8x64x1024 ![] bcast_S_S8x64x1024 (constant S_ .f32 0x7FC00000#32))

/-- The sum over the last axis, from the zero pattern, over the hidden size, with a trailing unit axis. -/
def rowMean (e : FVec F S8x64x1024 .f32) : FVec F S8x64x1 .f32 :=
  Host.divf
    (broadcastInDim S8x64x1 ![0, 1] bcast_S8x64_S8x64x1_0_1
      (Host.reduceAdd e (constant S_ .f32 0x00000000#32) reducesTo_S8x64x1024_S8x64_d2 h_S_))
    (broadcastInDim S8x64x1 ![] bcast_S_S8x64x1 (constant S_ .f32 0x44800000#32))

/-- The divisor of the variance: the hidden size minus the correction, as a float scalar. -/
def varDenom (ddof : IVec S_ 32) : FVec F S_ .f32 :=
  subf (constant S_ .f32 0x44800000#32) (sitofp .f32 ddof)

/-- The row variance with a correction: the centred squares summed over the last axis and divided by the
    divisor where it is positive, the fill pattern otherwise. -/
def rowVar (e : FVec F S8x64x1024 .f32) (ddof : IVec S_ 32) : FVec F S8x64x1 .f32 :=
  select (broadcastInDim S8x64x1 ![] bcast_S_S8x64x1 (cmpf .ogt (varDenom (F := F) ddof) (constant S_ .f32 0x00000000#32)))
    (Host.divf
      (broadcastInDim S8x64x1 ![0, 1] bcast_S8x64_S8x64x1_0_1
        (Host.reduceAdd
          (mulf (subf e (broadcastInDim S8x64x1024 ![0, 1, 2] bcast_S8x64x1_S8x64x1024_0_1_2 (rowMean e)))
            (subf e (broadcastInDim S8x64x1024 ![0, 1, 2] bcast_S8x64x1_S8x64x1024_0_1_2 (rowMean e))))
          (constant S_ .f32 0x00000000#32) reducesTo_S8x64x1024_S8x64_d2 h_S_))
      (broadcastInDim S8x64x1 ![] bcast_S_S8x64x1 (varDenom (F := F) ddof)))
    (broadcastInDim S8x64x1 ![] bcast_S_S8x64x1 (id (constant S_ .f32 0x7FC00000#32)))

/-- The embedding sum: the feature array with its last two axes exchanged, plus the position rows looked up at
    0, 1, …, 63, plus the token-type rows looked up at the constant index 1. -/
def embSum (x : FVec F S8x1024x64 .f32) (pos tok : FVec F S64x1024 .f32) : FVec F S8x64x1024 .f32 :=
  addf
    (addf (transpose S8x64x1024 [0, 2, 1] x transposes_S8x1024x64_S8x64x1024_0_2_1)
      (takeRows pos (broadcastInDim S8x64 ![1] bcast_S64_S8x64_1 (iotaInDim S64 32 0))))
    (takeRows tok (broadcastInDim S8x64 ![] bcast_S_S8x64 (constantI S_ 32 1#32)))

/-- The normalisation of an embedding array by its row mean and row variance, scaled and shifted. -/
def normalise (e : FVec F S8x64x1024 .f32) (g be : FVec F S1024 .f32) : FVec F S8x64x1024 .f32 :=
  addf
    (mulf
      (Host.divf
        (subf e (broadcastInDim S8x64x1024 ![0, 1, 2] bcast_S8x64x1_S8x64x1024_0_1_2 (rowMean e)))
        (broadcastInDim S8x64x1024 ![0, 1, 2] bcast_S8x64x1_S8x64x1024_0_1_2
          (Host.sqrt (addf (rowVar e (constantI S_ 32 0#32))
            (broadcastInDim S8x64x1 ![] bcast_S_S8x64x1 (constant S_ .f32 0x2B8CBCCC#32))))))
      (broadcastInDim S8x64x1024 ![0, 1, 2] bcast_S1x1x1024_S8x64x1024_0_1_2
        (broadcastInDim S1x1x1024 ![2] bcast_S1024_S1x1x1024_2 g)))
    (broadcastInDim S8x64x1024 ![0, 1, 2] bcast_S1x1x1024_S8x64x1024_0_1_2
      (broadcastInDim S1x1x1024 ![2] bcast_S1024_S1x1x1024_2 be))

/-- The reference's result of its five arguments. -/
def refTerm (x : FVec F S8x1024x64 .f32) (pos tok : FVec F S64x1024 .f32) (g be : FVec F S1024 .f32) :
    FVec F S8x64x1024 .f32 :=
  normalise (embSum x pos tok) g be

end Cert.ReferenceIdeal.Ref

end
-- ==== Proof.RefRun.lean ====
/-
  The reference program's @main as one straight line of its host operations, each call of a module-local
  function replaced by the callee's operations over that call's own buffers, and its run: every weakly fair
  execution terminates with the result buffer at the pure term of the five argument arrays that the
  operations compose, and the argument buffers unchanged.
-/
import proofs.«149981_g45715631898817_cont_8to1c4_635_5_alg».proof.Proof.Gen.ReferenceIdeal
import proofs.«149981_g45715631898817_cont_8to1c4_635_5_alg».proof.Proof.RefTerm
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 97 operations in order, the calls unfolded. The first four build the two index arrays (the row
    numbers 0 … 63 along the second axis, and the constant 1). Each row lookup is twenty-three operations over
    its call's buffers: the index wrapped where negative (the select is the inner call's one operation), given
    a trailing unit axis, range-checked against [0, 63], the rows gathered, and masked by the fill pattern.
    Then the transpose and the two sums, the row mean (five operations and the zero index constant), the row
    variance (twenty operations and the inner call's three: the fill pattern converted, broadcast, selected
    against), and the fourteen operations of the normalisation. -/
abbrev ops : List (HloOp τ sig (Elt F)) :=
  [ nullary main_v0 (iotaInDim S64 32 0),
    unary main_v0 main_v1 (broadcastInDim S8x64 ![1] bcast_S64_S8x64_1 : (⟨S64, .i32⟩ : BufTy).Contents (Elt F) → (⟨S8x64, .i32⟩ : BufTy).Contents (Elt F)),
    nullary main_c (constantI S_ 32 1#32),
    unary main_c main_v2 (broadcastInDim S8x64 ![] bcast_S_S8x64 : (⟨S_, .i32⟩ : BufTy).Contents (Elt F) → (⟨S8x64, .i32⟩ : BufTy).Contents (Elt F)),
    -- the position rows: the table is the second argument, the index the row numbers
    TRef.nullary main_call0.c (constantI S_ 32 0#32),
    TRef.unary main_call0.c main_call0.v0 (broadcastInDim S8x64 ![] bcast_S_S8x64),
    TRef.binary (.of main_v1) main_call0.v0 main_call0.v1 (cmpi .slt),
    TRef.nullary main_call0.c_0 (constantI S_ 32 64#32),
    TRef.unary main_call0.c_0 main_call0.v2 (broadcastInDim S8x64 ![] bcast_S_S8x64),
    TRef.binary (.of main_v1) main_call0.v2 main_call0.v3 addi,
    TRef.ternary main_call0.v1 main_call0.v3 (.of main_v1) main_call0.call0.v0 select,
    TRef.unary main_call0.call0.v0 main_call0.v5 (broadcastInDim S8x64x1 ![0, 1] bcast_S8x64_S8x64x1_0_1),
    TRef.nullary main_call0.c_1 (constantI S1 32 63#32),
    TRef.nullary main_call0.c_2 (constantI S_ 32 0#32),
    TRef.unary main_call0.c_2 main_call0.v6 (broadcastInDim S8x64x1 ![] bcast_S_S8x64x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8x64x1 ![0, 1, 2] bcast_S1x1x1_S8x64x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8x64x1_S8x64_d2 h_S_),
    TRef.binary (.of main_arg1) main_call0.v5 main_call0.v13 (fun x i => Host.gather gather_S64x1024_S8x64x1_S8x64x1024_2_0_n_n_0_2_11024 x i),
    TRef.unary main_call0.v12 main_call0.v14 (broadcastInDim S8x64x1024 ![0, 1] bcast_S8x64_S8x64x1024_0_1),
    TRef.nullary main_call0.cst (constant S_ .f32 0x7FC00000#32),
    TRef.unary main_call0.cst main_call0.v15 (broadcastInDim S8x64x1024 ![] bcast_S_S8x64x1024),
    TRef.ternary main_call0.v14 main_call0.v13 main_call0.v15 main_call0.v16 select,
    -- the token-type rows: the table is the third argument, the index the constant 1
    TRef.nullary main_call1.c (constantI S_ 32 0#32),
    TRef.unary main_call1.c main_call1.v0 (broadcastInDim S8x64 ![] bcast_S_S8x64),
    TRef.binary (.of main_v2) main_call1.v0 main_call1.v1 (cmpi .slt),
    TRef.nullary main_call1.c_0 (constantI S_ 32 64#32),
    TRef.unary main_call1.c_0 main_call1.v2 (broadcastInDim S8x64 ![] bcast_S_S8x64),
    TRef.binary (.of main_v2) main_call1.v2 main_call1.v3 addi,
    TRef.ternary main_call1.v1 main_call1.v3 (.of main_v2) main_call1.call0.v0 select,
    TRef.unary main_call1.call0.v0 main_call1.v5 (broadcastInDim S8x64x1 ![0, 1] bcast_S8x64_S8x64x1_0_1),
    TRef.nullary main_call1.c_1 (constantI S1 32 63#32),
    TRef.nullary main_call1.c_2 (constantI S_ 32 0#32),
    TRef.unary main_call1.c_2 main_call1.v6 (broadcastInDim S8x64x1 ![] bcast_S_S8x64x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S8x64x1 ![0, 1, 2] bcast_S1x1x1_S8x64x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S8x64x1_S8x64_d2 h_S_),
    TRef.binary (.of main_arg2) main_call1.v5 main_call1.v13 (fun x i => Host.gather gather_S64x1024_S8x64x1_S8x64x1024_2_0_n_n_0_2_11024 x i),
    TRef.unary main_call1.v12 main_call1.v14 (broadcastInDim S8x64x1024 ![0, 1] bcast_S8x64_S8x64x1024_0_1),
    TRef.nullary main_call1.cst (constant S_ .f32 0x7FC00000#32),
    TRef.unary main_call1.cst main_call1.v15 (broadcastInDim S8x64x1024 ![] bcast_S_S8x64x1024),
    TRef.ternary main_call1.v14 main_call1.v13 main_call1.v15 main_call1.v16 select,
    -- the embedding sum and its row mean
    unary main_arg0 main_v5 ((transpose S8x64x1024 [0, 2, 1] · transposes_S8x1024x64_S8x64x1024_0_2_1) : (⟨S8x1024x64, .f32⟩ : BufTy).Contents (Elt F) → (⟨S8x64x1024, .f32⟩ : BufTy).Contents (Elt F)),
    binary main_v5 main_v3 main_v6 (addf : (⟨S8x64x1024, .f32⟩ : BufTy).Contents (Elt F) → (⟨S8x64x1024, .f32⟩ : BufTy).Contents (Elt F) → (⟨S8x64x1024, .f32⟩ : BufTy).Contents (Elt F)),
    binary main_v6 main_v4 main_v7 (addf : (⟨S8x64x1024, .f32⟩ : BufTy).Contents (Elt F) → (⟨S8x64x1024, .f32⟩ : BufTy).Contents (Elt F) → (⟨S8x64x1024, .f32⟩ : BufTy).Contents (Elt F)),
    nullary main_cst (constant S_ .f32 0x00000000#32),
    binary main_v7 main_cst main_v8 ((fun x v => Host.reduceAdd x v reducesTo_S8x64x1024_S8x64_d2 h_S_) : (⟨S8x64x1024, .f32⟩ : BufTy).Contents (Elt F) → (⟨S_, .f32⟩ : BufTy).Contents (Elt F) → (⟨S8x64, .f32⟩ : BufTy).Contents (Elt F)),
    unary main_v8 main_v9 (broadcastInDim S8x64x1 ![0, 1] bcast_S8x64_S8x64x1_0_1 : (⟨S8x64, .f32⟩ : BufTy).Contents (Elt F) → (⟨S8x64x1, .f32⟩ : BufTy).Contents (Elt F)),
    nullary main_cst_0 (constant S_ .f32 0x44800000#32),
    unary main_cst_0 main_v10 (broadcastInDim S8x64x1 ![] bcast_S_S8x64x1 : (⟨S_, .f32⟩ : BufTy).Contents (Elt F) → (⟨S8x64x1, .f32⟩ : BufTy).Contents (Elt F)),
    binary main_v9 main_v10 main_v11 (Host.divf : (⟨S8x64x1, .f32⟩ : BufTy).Contents (Elt F) → (⟨S8x64x1, .f32⟩ : BufTy).Contents (Elt F) → (⟨S8x64x1, .f32⟩ : BufTy).Contents (Elt F)),
    nullary main_c_1 (constantI S_ 32 0#32),
    -- the row variance of the embedding sum, with the zero correction
    TRef.nullary main_call2.cst (constant S_ .f32 0x00000000#32),
    TRef.binary (.of main_v7) main_call2.cst main_call2.v0 (fun x v => Host.reduceAdd x v reducesTo_S8x64x1024_S8x64_d2 h_S_),
    TRef.unary main_call2.v0 main_call2.v1 (broadcastInDim S8x64x1 ![0, 1] bcast_S8x64_S8x64x1_0_1),
    TRef.nullary main_call2.cst_0 (constant S_ .f32 0x44800000#32),
    TRef.unary main_call2.cst_0 main_call2.v2 (broadcastInDim S8x64x1 ![] bcast_S_S8x64x1),
    TRef.binary main_call2.v1 main_call2.v2 main_call2.v3 Host.divf,
    TRef.unary main_call2.v3 main_call2.v4 (broadcastInDim S8x64x1024 ![0, 1, 2] bcast_S8x64x1_S8x64x1024_0_1_2),
    TRef.binary (.of main_v7) main_call2.v4 main_call2.v5 subf,
    TRef.binary main_call2.v5 main_call2.v5 main_call2.v6 mulf,
    TRef.unary (.of main_c_1) main_call2.v7 (sitofp .f32),
    TRef.nullary main_call2.cst_1 (constant S_ .f32 0x44800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S8x64x1024_S8x64_d2 h_S_),
    TRef.unary main_call2.v9 main_call2.v10 (broadcastInDim S8x64x1 ![0, 1] bcast_S8x64_S8x64x1_0_1),
    TRef.unary main_call2.v8 main_call2.v11 (broadcastInDim S8x64x1 ![] bcast_S_S8x64x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S8x64x1 ![] bcast_S_S8x64x1),
    TRef.ternary main_call2.v13 main_call2.v12 main_call2.call0.v1 main_call2.call0.v2 (fun p a b => select (broadcastInDim S8x64x1 ![] bcast_S_S8x64x1 p) a b),
    -- the normalisation
    unary main_v11 main_v13 (broadcastInDim S8x64x1024 ![0, 1, 2] bcast_S8x64x1_S8x64x1024_0_1_2 : (⟨S8x64x1, .f32⟩ : BufTy).Contents (Elt F) → (⟨S8x64x1024, .f32⟩ : BufTy).Contents (Elt F)),
    binary main_v7 main_v13 main_v14 (subf : (⟨S8x64x1024, .f32⟩ : BufTy).Contents (Elt F) → (⟨S8x64x1024, .f32⟩ : BufTy).Contents (Elt F) → (⟨S8x64x1024, .f32⟩ : BufTy).Contents (Elt F)),
    nullary main_cst_2 (constant S_ .f32 0x2B8CBCCC#32),
    unary main_cst_2 main_v15 (broadcastInDim S8x64x1 ![] bcast_S_S8x64x1 : (⟨S_, .f32⟩ : BufTy).Contents (Elt F) → (⟨S8x64x1, .f32⟩ : BufTy).Contents (Elt F)),
    binary main_v12 main_v15 main_v16 (addf : (⟨S8x64x1, .f32⟩ : BufTy).Contents (Elt F) → (⟨S8x64x1, .f32⟩ : BufTy).Contents (Elt F) → (⟨S8x64x1, .f32⟩ : BufTy).Contents (Elt F)),
    unary main_v16 main_v17 (Host.sqrt : (⟨S8x64x1, .f32⟩ : BufTy).Contents (Elt F) → (⟨S8x64x1, .f32⟩ : BufTy).Contents (Elt F)),
    unary main_v17 main_v18 (broadcastInDim S8x64x1024 ![0, 1, 2] bcast_S8x64x1_S8x64x1024_0_1_2 : (⟨S8x64x1, .f32⟩ : BufTy).Contents (Elt F) → (⟨S8x64x1024, .f32⟩ : BufTy).Contents (Elt F)),
    binary main_v14 main_v18 main_v19 (Host.divf : (⟨S8x64x1024, .f32⟩ : BufTy).Contents (Elt F) → (⟨S8x64x1024, .f32⟩ : BufTy).Contents (Elt F) → (⟨S8x64x1024, .f32⟩ : BufTy).Contents (Elt F)),
    unary main_arg3 main_v20 (broadcastInDim S1x1x1024 ![2] bcast_S1024_S1x1x1024_2 : (⟨S1024, .f32⟩ : BufTy).Contents (Elt F) → (⟨S1x1x1024, .f32⟩ : BufTy).Contents (Elt F)),
    unary main_v20 main_v21 (broadcastInDim S8x64x1024 ![0, 1, 2] bcast_S1x1x1024_S8x64x1024_0_1_2 : (⟨S1x1x1024, .f32⟩ : BufTy).Contents (Elt F) → (⟨S8x64x1024, .f32⟩ : BufTy).Contents (Elt F)),
    binary main_v19 main_v21 main_v22 (mulf : (⟨S8x64x1024, .f32⟩ : BufTy).Contents (Elt F) → (⟨S8x64x1024, .f32⟩ : BufTy).Contents (Elt F) → (⟨S8x64x1024, .f32⟩ : BufTy).Contents (Elt F)),
    unary main_arg4 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S8x64x1024 ![0, 1, 2] bcast_S1x1x1024_S8x64x1024_0_1_2 : (⟨S1x1x1024, .f32⟩ : BufTy).Contents (Elt F) → (⟨S8x64x1024, .f32⟩ : BufTy).Contents (Elt F)),
    binary main_v22 main_v24 main_v25 (addf : (⟨S8x64x1024, .f32⟩ : BufTy).Contents (Elt F) → (⟨S8x64x1024, .f32⟩ : BufTy).Contents (Elt F) → (⟨S8x64x1024, .f32⟩ : BufTy).Contents (Elt F)) ]

-- ninety-seven binds re-associated: the rewrite under the chain recurses once per statement
set_option maxRecDepth 4096 in
set_option maxHeartbeats 4000000 in
/-- @main is that straight line: with the functions' definitions unfolded at their calls and the records at
    their fields, both sides are one chain of steps once sequencing is re-associated. -/
theorem main_eq (c : Dev nD) : main (F := F) c = seq ops := by
  simp only [main, fn_take.body, fn_where.body, fn_var.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., binary_bufs_sub .., binary_bufs_sub .., nullary_bufs_sub .., binary_bufs_sub .., unary_bufs_sub ..,
    nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

attribute [local irreducible] Host.reduce Host.reduceAdd Host.gather in
set_option maxRecDepth 8192 in
set_option maxHeartbeats 1000000 in
/-- The fold of the operations at the result buffer is the reference's term of the contents of the five
    argument buffers: each operation's result read at its own buffer is its function of its operands'
    contents, at any other buffer what was there; what this leaves is the term's definition unfolded, the
    typed references' transports being the identity at these literal references. The reductions and the
    gather stay folded meanwhile (the equation never looks inside them). -/
theorem out_eq (V : Valuation τ sig (Elt F)) :
    after ops V (main_v25 : DevRef τ sig)
      = Cert.ReferenceIdeal.Ref.refTerm (V (main_arg0 : DevRef τ sig)) (V (main_arg1 : DevRef τ sig))
          (V (main_arg2 : DevRef τ sig)) (V (main_arg3 : DevRef τ sig)) (V (main_arg4 : DevRef τ sig)) := by
  after_results_simp
  rfl

/-- No operation writes an argument buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp
theorem arg4_eq (V : Valuation τ sig (Elt F)) :
    after ops V (main_arg4 : DevRef τ sig) = V (main_arg4 : DevRef τ sig) := by
  after_results_simp

/-- On every device, for any float values, from any memory with zero counters: every weakly fair execution of
    @main terminates with the result buffer at the reference's term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25) = Cert.ReferenceIdeal.Ref.refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v25).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.Value

end
-- ==== Proof.RefValue.lean ====
/-
  The reference's result term read at one index: every row lookup reads the table's row at the looked-up position,
  the embedding sum is the mathematical embedding, the row mean and row variance are the mean and the variance of the
  embedding's row, and the normalisation is the layer normalisation of the specification.
-/
import proofs.«149981_g45715631898817_cont_8to1c4_635_5_alg».proof.Proof.RefTerm
import proofs.«149981_g45715631898817_cont_8to1c4_635_5_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce
import Idealize.ShloMosaic.Lib.StableHlo.Predicate

noncomputable section

namespace Cert.ReferenceIdeal.RefValue

open Cert.ReferenceIdeal Cert.ReferenceIdeal.Gen Cert.ReferenceIdeal.Ref Idealize.ShloMosaic Idealize.SL.Sem
open Idealize.ShloMosaic.ValueIdx Idealize.ShloMosaic.StableHlo.Predicate
open scoped BigOperators

/-! ## Broadcasts read at an index -/

/-- An [8, 64] array given a trailing unit axis reads, at (b, s, 0), the array at (b, s). -/
theorem bcast_unit_apply {α : Type} (v : S8x64.Idx → α) (b : Fin 8) (s : Fin 64) (z : Fin 1) :
    broadcastInDim S8x64x1 ![0, 1] bcast_S8x64_S8x64x1_0_1 v (ix3 b s z) = v (ix2 b s) :=
  broadcastInDim_apply _ _ v _ _ fun a => match a with | ⟨0, _⟩ => rfl | ⟨1, _⟩ => rfl

/-- An [8, 64] array laid along the hidden axis reads, at (b, s, h), the array at (b, s). -/
theorem bcast_hidden_apply {α : Type} (v : S8x64.Idx → α) (b : Fin 8) (s : Fin 64) (h : Fin 1024) :
    broadcastInDim S8x64x1024 ![0, 1] bcast_S8x64_S8x64x1024_0_1 v (ix3 b s h) = v (ix2 b s) :=
  broadcastInDim_apply _ _ v _ _ fun a => match a with | ⟨0, _⟩ => rfl | ⟨1, _⟩ => rfl

/-- An [8, 64, 1] array laid along the hidden axis reads, at (b, s, h), the array at (b, s, 0). -/
theorem bcast_row_apply {α : Type} (v : S8x64x1.Idx → α) (b : Fin 8) (s : Fin 64) (h : Fin 1024) :
    broadcastInDim S8x64x1024 ![0, 1, 2] bcast_S8x64x1_S8x64x1024_0_1_2 v (ix3 b s h) = v (ix3 b s (0 : Fin 1)) :=
  broadcastInDim_apply _ _ v _ _ fun a => match a with | ⟨0, _⟩ => rfl | ⟨1, _⟩ => rfl | ⟨2, _⟩ => rfl

/-- A hidden-size vector laid along the last axis reads, at (b, s, h), the vector at h. -/
theorem bcast_vec_apply {α : Type} (v : S1024.Idx → α) (b : Fin 8) (s : Fin 64) (h : Fin 1024) :
    broadcastInDim S8x64x1024 ![0, 1, 2] bcast_S1x1x1024_S8x64x1024_0_1_2
      (broadcastInDim S1x1x1024 ![2] bcast_S1024_S1x1x1024_2 v) (ix3 b s h) = v (ix1 h) := by
  refine (broadcastInDim_apply _ _ _ _ (ix3 (0 : Fin 1) (0 : Fin 1) h)
    fun a => match a with | ⟨0, _⟩ => rfl | ⟨1, _⟩ => rfl | ⟨2, _⟩ => rfl).trans ?_
  exact broadcastInDim_apply _ _ v _ _ fun a => match a with | ⟨0, _⟩ => rfl

/-! ## The start index of a row lookup -/

/-- A start index that is a row number (below 64, so not negative as a signed word) is kept. -/
theorem takeStart_apply (idx : IVec S8x64 32) (b : Fin 8) (s : Fin 64) (z : Fin 1) (hlt : (idx (ix2 b s)).toNat < 64) :
    takeStart idx (ix3 b s z) = idx (ix2 b s) := by
  unfold takeStart
  rw [bcast_unit_apply, select_apply]
  have h0 : cmpi .slt idx (broadcastInDim S8x64 ![] bcast_S_S8x64 (constantI S_ 32 0#32)) (ix2 b s) = 0#1 := by
    refine eq_zero_of_ne_one fun h1 => ?_
    have h2 : IntOp.cmpi .slt (idx (ix2 b s)) 0#32 = 1#1 := h1
    rw [slt_iff_toNat (by omega) (by decide)] at h2
    exact absurd h2 (by simp)
  rw [h0, select_zero]

/-! ## The range check of a start index -/

/-- A fold over a one-element coordinate range is one application of the operation. -/
theorem fold_fin_one {α : Type} (op : α → α → α) [Std.Commutative op] [Std.Associative op] {n : Nat} (hn : n = 1)
    (init : α) (f : Fin n → α) :
    (Finset.univ : Finset (Fin n)).fold op init f = op (f ⟨0, by omega⟩) init := by
  subst hn
  rw [show (Finset.univ : Finset (Fin 1)) = {0} from by decide, Finset.fold_singleton]
  rfl

/-- A start index that is a row number lies in the table's row range. -/
theorem takeInRange_apply (st : IVec S8x64x1 32) (b : Fin 8) (s : Fin 64)
    (hlt : (st (ix3 b s (0 : Fin 1))).toNat < 64) : takeInRange st (ix2 b s) = 1#1 := by
  unfold takeInRange
  have hR : S8x64x1.Reduces [2] S8x64 := by decide
  rw [Host.reduce_eq_fold_single IntOp.andi _ _ reducesTo_S8x64x1_S8x64_d2 hR h_S_ (ix2 b s),
    fold_fin_one IntOp.andi (rfl : S8x64x1.size 2 = 1)]
  have hl : hR.lift (ix2 b s) ⟨0, by decide⟩ = ix3 b s (0 : Fin 1) := by
    funext c; apply Fin.ext
    match c with
    | ⟨0, _⟩ => rfl
    | ⟨1, _⟩ => rfl
    | ⟨2, _⟩ => rfl
  rw [Function.comp_apply, hl]
  have hge : IntOp.cmpi .sge (st (ix3 b s (0 : Fin 1))) 0#32 = 1#1 :=
    (sge_iff_toNat (by omega) (by decide)).mpr (Nat.zero_le _)
  have hle : IntOp.cmpi .sle (st (ix3 b s (0 : Fin 1))) 63#32 = 1#1 :=
    (sle_iff_toNat (by omega) (by decide)).mpr (by show _ ≤ 63; omega)
  show IntOp.andi (IntOp.andi (IntOp.cmpi .sge (st (ix3 b s (0 : Fin 1))) 0#32)
    (IntOp.cmpi .sle (st (ix3 b s (0 : Fin 1))) 63#32)) 1#1 = 1#1
  rw [hge, hle]; rfl
/-! ## The gather of table rows read at an index -/

/-- The gather of rows of a 64-row table reads, at (b, s, h), the table at the start index (b, s, 0) — read signed
    and clamped into the row range — and column h. -/
theorem gather_apply {α : Type} (tbl : S64x1024.Idx → α) (st : IVec S8x64x1 32) (b : Fin 8) (s : Fin 64) (h : Fin 1024) :
    Host.gather gather_S64x1024_S8x64x1_S8x64x1024_2_0_n_n_0_2_11024 tbl st (ix3 b s h)
      = tbl (ix2 (⟨min (st (ix3 b s (0 : Fin 1))).toInt.toNat 63, by omega⟩ : Fin 64) h) := by
  unfold Host.gather
  congr 1
  funext a
  refine Fin.ext ?_
  match a with
  | ⟨0, _⟩ =>
    show gather_S64x1024_S8x64x1_S8x64x1024_2_0_n_n_0_2_11024.start (ix3 b s h) st 0
      + gather_S64x1024_S8x64x1_S8x64x1024_2_0_n_n_0_2_11024.batchCoord (ix3 b s h) 0
      + gather_S64x1024_S8x64x1_S8x64x1024_2_0_n_n_0_2_11024.offCoord (ix3 b s h) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S64x1024_S8x64x1_S8x64x1024_2_0_n_n_0_2_11024.startIndexMap
      from List.mem_singleton.mpr rfl)]
    have hsi : gather_S64x1024_S8x64x1_S8x64x1024_2_0_n_n_0_2_11024.siIdx (ix3 b s h)
        ⟨List.idxOf (0 : Fin 2) gather_S64x1024_S8x64x1_S8x64x1024_2_0_n_n_0_2_11024.startIndexMap,
          List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S64x1024_S8x64x1_S8x64x1024_2_0_n_n_0_2_11024.start (ix3 b s h) st 1
      + gather_S64x1024_S8x64x1_S8x64x1024_2_0_n_n_0_2_11024.batchCoord (ix3 b s h) 1
      + gather_S64x1024_S8x64x1_S8x64x1024_2_0_n_n_0_2_11024.offCoord (ix3 b s h) 1 = h.val
    rw [GatherDims.batchCoord_eq_zero _ _ _ List.not_mem_nil]
    have hs : gather_S64x1024_S8x64x1_S8x64x1024_2_0_n_n_0_2_11024.start (ix3 b s h) st 1 = 0 := by
      unfold GatherDims.start
      rw [dif_neg (show ¬ (1 : Fin 2) ∈ gather_S64x1024_S8x64x1_S8x64x1024_2_0_n_n_0_2_11024.startIndexMap from by decide)]
    have ho : gather_S64x1024_S8x64x1_S8x64x1024_2_0_n_n_0_2_11024.offCoord (ix3 b s h) 1 = h.val := by
      unfold GatherDims.offCoord
      rw [dif_pos (show (1 : Fin 2) ∈ gather_S64x1024_S8x64x1_S8x64x1024_2_0_n_n_0_2_11024.sKept from by decide)]
      rfl
    rw [hs, ho]; omega

/-! ## A row lookup read at an index -/

/-- Rows looked up at an index array whose entry at (b, s) is a row number: the table's row of that number. -/
theorem takeRows_apply (tbl : FVec Ideal S64x1024 .f32) (idx : IVec S8x64 32) (b : Fin 8) (s : Fin 64) (h : Fin 1024)
    (hlt : (idx (ix2 b s)).toNat < 64) :
    takeRows (F := Ideal) tbl idx (ix3 b s h) = tbl (ix2 (⟨(idx (ix2 b s)).toNat, hlt⟩ : Fin 64) h) := by
  have hst : takeStart idx (ix3 b s (0 : Fin 1)) = idx (ix2 b s) := takeStart_apply idx b s 0 hlt
  unfold takeRows
  rw [select_apply, bcast_hidden_apply, takeInRange_apply _ b s (by rw [hst]; exact hlt), select_one, gather_apply]
  refine congrArg (fun r => tbl (ix2 r h)) (Fin.ext ?_)
  show min (takeStart idx (ix3 b s (0 : Fin 1))).toInt.toNat 63 = (idx (ix2 b s)).toNat
  rw [hst, toInt_eq_toNat_of_lt (by omega), Int.toNat_natCast]
  omega

/-- The position rows: looked up at 0, 1, …, 63 along the sequence axis, row s at position s. -/
theorem takeRows_iota_apply (tbl : FVec Ideal S64x1024 .f32) (b : Fin 8) (s : Fin 64) (h : Fin 1024) :
    takeRows (F := Ideal) tbl (broadcastInDim S8x64 ![1] bcast_S64_S8x64_1 (iotaInDim S64 32 0)) (ix3 b s h)
      = tbl (ix2 s h) := by
  have hv : broadcastInDim S8x64 ![1] bcast_S64_S8x64_1 (iotaInDim S64 32 0) (ix2 b s) = BitVec.ofNat 32 s.val :=
    broadcastInDim_apply _ _ _ _ (ix1 s) fun a => match a with | ⟨0, _⟩ => rfl
  have hn : (broadcastInDim S8x64 ![1] bcast_S64_S8x64_1 (iotaInDim S64 32 0) (ix2 b s)).toNat = s.val := by
    rw [hv, BitVec.toNat_ofNat]; have := s.isLt; omega
  rw [takeRows_apply tbl _ b s h (by rw [hn]; exact s.isLt)]
  exact congrArg (fun r => tbl (ix2 r h)) (Fin.ext hn)

/-- The token-type rows: looked up at the constant 1 everywhere, row 1. -/
theorem takeRows_one_apply (tbl : FVec Ideal S64x1024 .f32) (b : Fin 8) (s : Fin 64) (h : Fin 1024) :
    takeRows (F := Ideal) tbl (broadcastInDim S8x64 ![] bcast_S_S8x64 (constantI S_ 32 1#32)) (ix3 b s h)
      = tbl (ix2 (1 : Fin 64) h) := by
  have hv : broadcastInDim S8x64 ![] bcast_S_S8x64 (constantI S_ 32 1#32) (ix2 b s) = 1#32 := rfl
  have hn : (broadcastInDim S8x64 ![] bcast_S_S8x64 (constantI S_ 32 1#32) (ix2 b s)).toNat = 1 := by rw [hv]; rfl
  rw [takeRows_apply tbl _ b s h (by rw [hn]; decide)]
  exact congrArg (fun r => tbl (ix2 r h)) (Fin.ext hn)

/-! ## The embedding sum -/

/-- The embedding sum read at (b, s, h) is the embedding of the specification. -/
theorem embSum_apply (x : FVec Ideal S8x1024x64 .f32) (pos tok : FVec Ideal S64x1024 .f32) (b : Fin 8) (s : Fin 64)
    (h : Fin 1024) : embSum (F := Ideal) x pos tok (ix3 b s h) = Cert.Spec.emb x pos tok b s h := by
  unfold embSum Cert.Spec.emb
  rw [addf_apply, addf_apply, takeRows_iota_apply, takeRows_one_apply, transpose_ix3_021_apply]

/-! ## The host's quotient and square root at an index, and a broadcast scalar -/

/-- The host's quotient at an index is the quotient of the elements. -/
theorem hostDivf_apply {t : Shape} (a c : FVec Ideal t .f32) (i : t.Idx) : Host.divf a c i = Ideal.div (a i) (c i) := rfl

/-- The host's square root at an index is the square root of the element. -/
theorem hostSqrt_apply {t : Shape} (a : FVec Ideal t .f32) (i : t.Idx) : Host.sqrt a i = Ideal.sqrt (a i) := rfl

/-! ## The row mean -/

/-- The reduced index (b, s) with the hidden coordinate k inserted is (b, s, k). -/
theorem lift_hidden (hR : S8x64x1024.Reduces [2] S8x64) (b : Fin 8) (s : Fin 64) (k : Fin 1024) :
    hR.lift (ix2 b s) k = ix3 b s k := by
  funext c; apply Fin.ext
  match c with
  | ⟨0, _⟩ => rfl
  | ⟨1, _⟩ => rfl
  | ⟨2, _⟩ => rfl

/-- The sum over the hidden axis from the zero pattern, read at (b, s): the sum of the row. -/
theorem rowSum_apply (e : FVec Ideal S8x64x1024 .f32) (b : Fin 8) (s : Fin 64) :
    Host.reduceAdd (F := Ideal) e (constant (F := Ideal) S_ .f32 0x00000000#32) reducesTo_S8x64x1024_S8x64_d2 h_S_ (ix2 b s)
      = ∑ k : Fin 1024, e (ix3 b s k) := by
  have hR : S8x64x1024.Reduces [2] S8x64 := by decide
  show Ideal.hostReduceAdd reducesTo_S8x64x1024_S8x64_d2 e (Ideal.ofBits .f32 0x00000000#32) (ix2 b s) = _
  rw [Ideal.hostReduceAdd_single _ hR, Ideal.ofBits_zero_f32, zero_add]
  exact Finset.sum_congr rfl fun k _ => congrArg e (lift_hidden hR b s k)

/-- The row mean read at (b, s, 0): the sum of the row over the hidden size. -/
theorem rowMean_apply (e : FVec Ideal S8x64x1024 .f32) (b : Fin 8) (s : Fin 64) (z : Fin 1) :
    rowMean (F := Ideal) e (ix3 b s z) = Ideal.div (∑ k : Fin 1024, e (ix3 b s k)) Cert.Spec.c1024 := by
  unfold rowMean
  rw [hostDivf_apply, bcast_unit_apply, rowSum_apply, bcast_scalar _ h_S_]
  rfl

/-! ## The row variance -/

/-- With the correction 0 the variance's divisor is the hidden size. -/
theorem varDenom_zero_apply (i : S_.Idx) : varDenom (F := Ideal) (constantI S_ 32 0#32) i = Cert.Spec.c1024 := by
  show Cert.Spec.c1024 - (((0#32 : BitVec 32).toInt : ℝ) : EReal) = Cert.Spec.c1024
  rw [BitVec.toInt_zero]; simp

/-- The row variance with the correction 0 read at (b, s, 0): the divisor is positive, so it is the sum of the
    centred squares over the hidden size. -/
theorem rowVar_apply (e : FVec Ideal S8x64x1024 .f32) (b : Fin 8) (s : Fin 64) (z : Fin 1) :
    rowVar (F := Ideal) e (constantI S_ 32 0#32) (ix3 b s z)
      = Ideal.div (∑ k : Fin 1024, (e (ix3 b s k) - rowMean (F := Ideal) e (ix3 b s (0 : Fin 1)))
          * (e (ix3 b s k) - rowMean (F := Ideal) e (ix3 b s (0 : Fin 1)))) Cert.Spec.c1024 := by
  unfold rowVar
  rw [select_apply]
  have hc : broadcastInDim S8x64x1 ![] bcast_S_S8x64x1
      (cmpf .ogt (varDenom (F := Ideal) (constantI S_ 32 0#32)) (constant (F := Ideal) S_ .f32 0x00000000#32)) (ix3 b s z) = 1#1 := by
    rw [bcast_scalar _ h_S_]
    show Ideal.cmp .ogt (varDenom (F := Ideal) (constantI S_ 32 0#32) (Shape.Idx.first h_S_)) (Ideal.ofBits .f32 0x00000000#32) = 1#1
    rw [varDenom_zero_apply, Ideal.ofBits_zero_f32]
    show BitVec.ofBool (decide ((0 : EReal) < Cert.Spec.c1024)) = 1#1
    rw [ofBool_eq_one_iff, decide_eq_true_eq, Cert.Spec.c1024_eq]
    exact_mod_cast (by norm_num : (0 : ℝ) < 1024)
  rw [hc, select_one, hostDivf_apply, bcast_unit_apply, rowSum_apply, bcast_scalar _ h_S_, varDenom_zero_apply]
  refine congrArg (fun t => Ideal.div t Cert.Spec.c1024) (Finset.sum_congr rfl fun k _ => ?_)
  rw [mulf_apply, subf_apply, bcast_row_apply]

/-! ## The normalisation -/

/-- The normalisation read at (b, s, h): the centred element over the square root of the row variance plus the small
    constant, scaled and shifted. -/
theorem normalise_apply (e : FVec Ideal S8x64x1024 .f32) (g be : FVec Ideal S1024 .f32) (b : Fin 8) (s : Fin 64)
    (h : Fin 1024) :
    normalise (F := Ideal) e g be (ix3 b s h)
      = Ideal.div (e (ix3 b s h) - rowMean (F := Ideal) e (ix3 b s (0 : Fin 1)))
          (Ideal.sqrt (rowVar (F := Ideal) e (constantI S_ 32 0#32) (ix3 b s (0 : Fin 1)) + Cert.Spec.ceps)) * g (ix1 h)
        + be (ix1 h) := by
  unfold normalise
  rw [addf_apply, mulf_apply, hostDivf_apply, subf_apply, bcast_row_apply, bcast_row_apply, hostSqrt_apply, addf_apply,
    bcast_vec_apply, bcast_vec_apply, bcast_scalar _ h_S_]
  rfl

/-! ## The reference's result -/

/-- The row mean of the embedding sum is the mean of the specification. -/
theorem rowMean_embSum (x : FVec Ideal S8x1024x64 .f32) (pos tok : FVec Ideal S64x1024 .f32) (b : Fin 8) (s : Fin 64)
    (z : Fin 1) : rowMean (F := Ideal) (embSum (F := Ideal) x pos tok) (ix3 b s z) = Cert.Spec.mean x pos tok b s := by
  rw [rowMean_apply]
  unfold Cert.Spec.mean
  simp only [embSum_apply]

/-- The row variance of the embedding sum is the variance of the specification. -/
theorem rowVar_embSum (x : FVec Ideal S8x1024x64 .f32) (pos tok : FVec Ideal S64x1024 .f32) (b : Fin 8) (s : Fin 64)
    (z : Fin 1) :
    rowVar (F := Ideal) (embSum (F := Ideal) x pos tok) (constantI S_ 32 0#32) (ix3 b s z) = Cert.Spec.var x pos tok b s := by
  rw [rowVar_apply, rowMean_embSum]
  unfold Cert.Spec.var
  simp only [embSum_apply]

/-- THE REFERENCE'S RESULT READ AT (b, s, h): the layer normalisation of the specification. -/
theorem refTerm_apply (x : FVec Ideal S8x1024x64 .f32) (pos tok : FVec Ideal S64x1024 .f32) (g be : FVec Ideal S1024 .f32)
    (b : Fin 8) (s : Fin 64) (h : Fin 1024) :
    Cert.ReferenceIdeal.Ref.refTerm (F := Ideal) x pos tok g be (Idealize.ShloMosaic.ValueIdx.ix3 b s h)
      = Cert.Spec.layerNorm x pos tok g be b s h := by
  unfold refTerm
  rw [normalise_apply, embSum_apply, rowMean_embSum, rowVar_embSum]
  exact Cert.Spec.layerNorm_eq_div x pos tok g be b s h

end Cert.ReferenceIdeal.RefValue

end
-- ==== Proof.lean ====
/-
  The certificate of the embedding-plus-layer-normalisation kernel against its jnp reference.

  Both programs compute, for a batch element b, a position s and a hidden coordinate h,
      out[b,s,h] = (e[b,s,h] - mean[b,s]) * (var[b,s] + eps)^(-1/2) * gamma[h] + beta[h],
      e[b,s,h] = x[b,h,s] + pos[s,h] + tok[1,h],
  with mean and var the mean and the variance of the row e[b,s,:] over its 1024 entries. The kernel adds the
  position and token-type rows first and multiplies by the reciprocal square root; the reference looks the two
  rows up (indices 0 … 63 and the constant 1, all in range), adds them one after the other and divides by the
  square root. On the extended reals addition is associative, and var + eps is strictly positive (a sum of
  squares over a positive constant, plus a positive constant), where the product with the reciprocal square
  root and the quotient by the square root are one value. No finiteness of the inputs is used.

  Proof/Spec.lean states the mathematics, Proof/KernelPoint.lean and Proof/KernelValue.lean read the kernel's
  result array off its run, Proof/RefTerm.lean, Proof/RefRun.lean and Proof/RefValue.lean the reference's.
-/
import proofs.«149981_g45715631898817_cont_8to1c4_635_5_alg».proof.Defs
import proofs.«149981_g45715631898817_cont_8to1c4_635_5_alg».proof.Proof.Gen.Kernel
import proofs.«149981_g45715631898817_cont_8to1c4_635_5_alg».proof.Proof.Gen.Kernel.Skeleton
import proofs.«149981_g45715631898817_cont_8to1c4_635_5_alg».proof.Proof.Gen.Kernel.Launch
import proofs.«149981_g45715631898817_cont_8to1c4_635_5_alg».proof.Proof.Gen.Kernel.Points
import proofs.«149981_g45715631898817_cont_8to1c4_635_5_alg».proof.Proof.Gen.Kernel.Frame
import proofs.«149981_g45715631898817_cont_8to1c4_635_5_alg».proof.Proof.Gen.KernelIdeal
import proofs.«149981_g45715631898817_cont_8to1c4_635_5_alg».proof.Proof.Gen.KernelIdeal.Skeleton
import proofs.«149981_g45715631898817_cont_8to1c4_635_5_alg».proof.Proof.Gen.KernelIdeal.Launch
import proofs.«149981_g45715631898817_cont_8to1c4_635_5_alg».proof.Proof.Gen.KernelIdeal.Points
import proofs.«149981_g45715631898817_cont_8to1c4_635_5_alg».proof.Proof.Gen.KernelIdeal.Frame
import proofs.«149981_g45715631898817_cont_8to1c4_635_5_alg».proof.Proof.Gen.KernelIdeal.Value
import proofs.«149981_g45715631898817_cont_8to1c4_635_5_alg».proof.Proof.Gen.ReferenceIdeal
import proofs.«149981_g45715631898817_cont_8to1c4_635_5_alg».proof.Proof.Gen.Pre_finite_inputs
import proofs.«149981_g45715631898817_cont_8to1c4_635_5_alg».proof.Proof.KernelValue
import proofs.«149981_g45715631898817_cont_8to1c4_635_5_alg».proof.Proof.RefRun
import proofs.«149981_g45715631898817_cont_8to1c4_635_5_alg».proof.Proof.RefValue
import Idealize.ShloMosaic.Adequacy
import Idealize.ShloMosaic.Init

noncomputable section

namespace Cert.Proof

open Idealize.ShloMosaic Idealize.SL.Sem Idealize.ShloMosaic.ValueIdx

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's are the
    specification's array, element by element. -/
theorem algebraic : Cert.algebraic_KernelIdeal_ReferenceIdeal := by
  intro m ρ m' ρ' _ hagree
  refine ⟨fun c => Cert.KernelIdeal.Whole.specOut m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  funext i
  obtain ⟨b, s, h, rfl⟩ : ∃ (b : Fin 8) (s : Fin 64) (h : Fin 1024), i = ix3 b s h := ⟨i 0, i 1, i 2, eq_ix3 i⟩
  exact Cert.ReferenceIdeal.RefValue.refTerm_apply _ _ _ _ _ b s h

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
